-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S640000 : Shape := ⟨1, ![640000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg10 : IVec S640000 32) (main_arg11 : IVec S640000 32) (main_v48 : IVec S_ 1) (main_v50 : IVec S640000 1) : IVec S_ 1 :=
  let main_c_19 : IVec S_ 32 := constantI S_ 32 10000#32
  let main_v51 : IVec S640000 32 := broadcastInDim S640000 ![] bcast_S_S640000 main_c_19
  let main_v52 : IVec S640000 1 := cmpi .slt main_arg10 main_v51
  let main_v53 : IVec S640000 1 := andi main_v50 main_v52
  let main_c_20 : IVec S_ 1 := constantI S_ 1 1#1
  let main_v54 : IVec S_ 1 := (fun x v => Host.reduce IntOp.andi x v reducesTo_S640000_S_d0 h_S_) main_v53 main_c_20
  let main_v55 : IVec S_ 1 := andi main_v48 main_v54
  let main_c_21 : IVec S_ 32 := constantI S_ 32 0#32
  let main_v56 : IVec S640000 32 := broadcastInDim S640000 ![] bcast_S_S640000 main_c_21
  let main_v57 : IVec S640000 1 := cmpi .sge main_arg11 main_v56
  let main_c_22 : IVec S_ 32 := constantI S_ 32 10000#32
  let main_v58 : IVec S640000 32 := broadcastInDim S640000 ![] bcast_S_S640000 main_c_22
  let main_v59 : IVec S640000 1 := cmpi .slt main_arg11 main_v58
  let main_v60 : IVec S640000 1 := andi main_v57 main_v59
  let main_c_23 : IVec S_ 1 := constantI S_ 1 1#1
  let main_v61 : IVec S_ 1 := (fun x v => Host.reduce IntOp.andi x v reducesTo_S640000_S_d0 h_S_) main_v60 main_c_23
  let main_v62 : IVec S_ 1 := andi main_v55 main_v61
  main_v62

def fn_part2 {F : FTy → Type} [FloatOps F] (main_arg7 : FVec F S128x64 .f32) (main_arg8 : FVec F S128x64 .f32) (main_arg9 : FVec F S64 .f32) (main_arg10 : IVec S640000 32) (main_arg11 : IVec S640000 32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S640000 32 := broadcastInDim S640000 ![] bcast_S_S640000 main_c_18
  let main_v50 : IVec S640000 1 := cmpi .sge main_arg10 main_v49
  fn_part3 (F := F) main_arg10 main_arg11 main_v48 main_v50

def fn_part1 {F : FTy → Type} [FloatOps F] (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : IVec S640000 32) (main_arg11 : IVec S640000 32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S10000x128 .f32) (main_arg1 : FVec F S128x128 .f32) (main_arg2 : FVec F S128x128 .f32) (main_arg3 : FVec F S128 .f32) (main_arg4 : FVec F S128x128 .f32) (main_arg5 : FVec F S128x128 .f32) (main_arg6 : FVec F S128 .f32) (main_arg7 : FVec F S128x64 .f32) (main_arg8 : FVec F S128x64 .f32) (main_arg9 : FVec F S64 .f32) (main_arg10 : IVec S640000 32) (main_arg11 : IVec S640000 32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_v13 main_v16
-- ==== Kernel.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S640000 : Shape := ⟨1, ![640000]⟩
abbrev S_ : Shape := ⟨0, ![]⟩
abbrev S100000000 : Shape := ⟨1, ![100000000]⟩
abbrev S640000x1 : Shape := ⟨2, ![640000, 1]⟩
abbrev S10000x10000 : Shape := ⟨2, ![10000, 10000]⟩
abbrev S10000 : Shape := ⟨1, ![10000]⟩
abbrev S10000x1 : Shape := ⟨2, ![10000, 1]⟩
abbrev S1x128 : Shape := ⟨2, ![1, 128]⟩
abbrev S400x10000 : Shape := ⟨2, ![400, 10000]⟩
abbrev S400x128 : Shape := ⟨2, ![400, 128]⟩
abbrev S400x1 : Shape := ⟨2, ![400, 1]⟩
abbrev S1x64 : Shape := ⟨2, ![1, 64]⟩
abbrev S10000x64 : Shape := ⟨2, ![10000, 64]⟩
abbrev S400x64 : Shape := ⟨2, ![400, 64]⟩

abbrev nBuf : Space → Nat
  | .hbm => 53
  | .vmem => 36
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S_, .f32⟩
  | .hbm, ⟨17, _⟩ => ⟨S100000000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S_, .f32⟩
  | .hbm, ⟨27, _⟩ => ⟨S640000, .f32⟩
  | .hbm, ⟨28, _⟩ => ⟨S100000000, .f32⟩
  | .hbm, ⟨29, _⟩ => ⟨S10000x10000, .f32⟩
  | .hbm, ⟨30, _⟩ => ⟨S10000x10000, .bf16⟩
  | .hbm, ⟨31, _⟩ => ⟨S_, .f32⟩
  | .hbm, ⟨32, _⟩ => ⟨S640000, .f32⟩
  | .hbm, ⟨33, _⟩ => ⟨S_, .f32⟩
  | .hbm, ⟨34, _⟩ => ⟨S10000, .f32⟩
  | .hbm, ⟨35, _⟩ => ⟨S640000x1, .i32⟩
  | .hbm, ⟨36, _⟩ => ⟨S10000, .f32⟩
  | .hbm, ⟨37, _⟩ => ⟨S_, .f32⟩
  | .hbm, ⟨38, _⟩ => ⟨S10000, .f32⟩
  | .hbm, ⟨39, _⟩ => ⟨S10000, .f32⟩
  | .hbm, ⟨40, _⟩ => ⟨S_, .f32⟩
  | .hbm, ⟨41, _⟩ => ⟨S10000, .f32⟩
  | .hbm, ⟨42, _⟩ => ⟨S10000, .f32⟩
  | .hbm, ⟨43, _⟩ => ⟨S10000x1, .f32⟩
  | .hbm, ⟨44, _⟩ => ⟨S10000x128, .bf16⟩
  | .hbm, ⟨45, _⟩ => ⟨S1x128, .f32⟩
  | .hbm, ⟨46, _⟩ => ⟨S10000x128, .f32⟩
  | .hbm, ⟨47, _⟩ => ⟨S10000x128, .bf16⟩
  | .hbm, ⟨48, _⟩ => ⟨S1x128, .f32⟩
  | .hbm, ⟨49, _⟩ => ⟨S10000x128, .f32⟩
  | .hbm, ⟨50, _⟩ => ⟨S10000x128, .bf16⟩
  | .hbm, ⟨51, _⟩ => ⟨S1x64, .f32⟩
  | .hbm, ⟨52, _⟩ => ⟨S10000x64, .f32⟩
  | .local _ .vmem, ⟨0, _⟩ => ⟨S400x10000, .bf16⟩
  | .local _ .vmem, ⟨1, _⟩ => ⟨S400x10000, .bf16⟩
  | .local _ .vmem, ⟨2, _⟩ => ⟨S10000x128, .bf16⟩
  | .local _ .vmem, ⟨3, _⟩ => ⟨S400x128, .f32⟩
  | .local _ .vmem, ⟨4, _⟩ => ⟨S400x128, .f32⟩
  | .local _ .vmem, ⟨5, _⟩ => ⟨S128x128, .f32⟩
  | .local _ .vmem, ⟨6, _⟩ => ⟨S128x128, .f32⟩
  | .local _ .vmem, ⟨7, _⟩ => ⟨S1x128, .f32⟩
  | .local _ .vmem, ⟨8, _⟩ => ⟨S400x1, .f32⟩
  | .local _ .vmem, ⟨9, _⟩ => ⟨S400x1, .f32⟩
  | .local _ .vmem, ⟨10, _⟩ => ⟨S400x128, .f32⟩
  | .local _ .vmem, ⟨11, _⟩ => ⟨S400x128, .f32⟩
  | .local _ .vmem, ⟨12, _⟩ => ⟨S400x10000, .bf16⟩
  | .local _ .vmem, ⟨13, _⟩ => ⟨S400x10000, .bf16⟩
  | .local _ .vmem, ⟨14, _⟩ => ⟨S10000x128, .bf16⟩
  | .local _ .vmem, ⟨15, _⟩ => ⟨S400x128, .f32⟩
  | .local _ .vmem, ⟨16, _⟩ => ⟨S400x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S400x1, .f32⟩
  | .local _ .vmem, ⟨21, _⟩ => ⟨S400x1, .f32⟩
  | .local _ .vmem, ⟨22, _⟩ => ⟨S400x128, .f32⟩
  | .local _ .vmem, ⟨23, _⟩ => ⟨S400x128, .f32⟩
  | .local _ .vmem, ⟨24, _⟩ => ⟨S400x10000, .bf16⟩
  | .local _ .vmem, ⟨25, _⟩ => ⟨S400x10000, .bf16⟩
  | .local _ .vmem, ⟨26, _⟩ => ⟨S10000x128, .bf16⟩
  | .local _ .vmem, ⟨27, _⟩ => ⟨S400x128, .f32⟩
  | .local _ .vmem, ⟨28, _⟩ => ⟨S400x128, .f32⟩
  | .local _ .vmem, ⟨29, _⟩ => ⟨S128x64, .f32⟩
  | .local _ .vmem, ⟨30, _⟩ => ⟨S128x64, .f32⟩
  | .local _ .vmem, ⟨31, _⟩ => ⟨S1x64, .f32⟩
  | .local _ .vmem, ⟨32, _⟩ => ⟨S400x1, .f32⟩
  | .local _ .vmem, ⟨33, _⟩ => ⟨S400x1, .f32⟩
  | .local _ .vmem, ⟨34, _⟩ => ⟨S400x64, .f32⟩
  | .local _ .vmem, ⟨35, _⟩ => ⟨S400x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_c_0 : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_5 : Ref sig .tc := ⟨.hbm, 37, rfl⟩
abbrev main_v18 : Ref sig .tc := ⟨.hbm, 38, rfl⟩
abbrev main_v19 : Ref sig .tc := ⟨.hbm, 39, rfl⟩
abbrev main_cst_6 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg6_1 : Ref sig .tc := ⟨.vmem, 33, rfl⟩
abbrev cc2_stg7_0 : Ref sig .tc := ⟨.vmem, 34, rfl⟩
abbrev cc2_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem6_1 : DmaSem sig := 33
abbrev cc2_sem7_0 : DmaSem sig := 34
abbrev cc2_sem7_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S400x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S400x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S400x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S400x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  bcast_S_S640000 : S_.BroadcastsInDim S640000 (![] : Fin 0 → Fin S640000.rank)
  bcast_S_S100000000 : S_.BroadcastsInDim S100000000 (![] : Fin 0 → Fin S100000000.rank)
  bcast_S640000_S640000x1_0 : S640000.BroadcastsInDim S640000x1 (![0] : Fin 1 → Fin S640000x1.rank)
  shapeCasts_S100000000_S10000x10000 : S100000000.ShapeCasts S10000x10000
  bitsLt_bf16_f32 : FTy.bits .bf16 < FTy.bits .f32
  bcast_S_S10000 : S_.BroadcastsInDim S10000 (![] : Fin 0 → Fin S10000.rank)
  shapeCasts_S10000_S10000x1 : S10000.ShapeCasts S10000x1
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  shapeCasts_S400x10000_S400x10000 : S400x10000.ShapeCasts S400x10000
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S400x1_S400x1_0_0 : ∀ a, (![0, 0] : Fin 2 → Nat) a + S400x1.size a ≤ S400x1.size a
  h_S400x1 : 0 < S400x1.numel
  shapeCasts_S400x1_S400x1 : S400x1.ShapeCasts S400x1
  broadcasts_S400x1_S400x128 : S400x1.Broadcasts S400x128
  inb_S400x128_S400x128_0_0 : ∀ a, (![0, 0] : Fin 2 → Nat) a + S400x128.size a ≤ S400x128.size a
  h_S400x128 : 0 < S400x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  shapeCasts_S400x128_S400x128 : S400x128.ShapeCasts S400x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S400x64 : S1x64.Broadcasts S400x64
  inb_S400x64_S400x64_0_0 : ∀ a, (![0, 0] : Fin 2 → Nat) a + S400x64.size a ≤ S400x64.size a
  h_S400x64 : 0 < S400x64.numel
  scatter_S100000000_S640000x1_S640000_n_0_0_1_wf : ScatterDims.WF S100000000 S640000x1 S640000 [] [0] [0] 1
  scatter_S10000_S640000x1_S640000_n_0_0_1_wf : ScatterDims.WF S10000 S640000x1 S640000 [] [0] [0] 1
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  dot_S400x128_S128x64_S400x64_1_0_0_1_n_n_wf : DotDims.WF S400x128 S128x64 S400x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .bf16 = 32 ∨ (Rect.block (s := S10000x10000) S400x10000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .bf16 = 32 ∨ (Rect.block (s := S10000x128) S10000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x128.size a ≤ S10000x128.size a
  hwx0_2 : ∀ i : grid0.Coords, EltTy.bits .f32 = 32 ∨ (Rect.block (s := S10000x128) S400x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x1.size a ≤ S10000x1.size a
  hwx0_6 : ∀ i : grid0.Coords, EltTy.bits .f32 = 32 ∨ (Rect.block (s := S10000x1) S400x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S400x128.size a ≤ S10000x128.size a
  hwx0_7 : ∀ i : grid0.Coords, EltTy.bits .f32 = 32 ∨ (Rect.block (s := S10000x128) S400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .bf16 = 32 ∨ (Rect.block (s := S10000x10000) S400x10000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .bf16 = 32 ∨ (Rect.block (s := S10000x128) S10000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x128.size a ≤ S10000x128.size a
  hwx1_2 : ∀ i : grid1.Coords, EltTy.bits .f32 = 32 ∨ (Rect.block (s := S10000x128) S400x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S400x1.size a ≤ S10000x1.size a
  hwx1_6 : ∀ i : grid1.Coords, EltTy.bits .f32 = 32 ∨ (Rect.block (s := S10000x1) S400x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S400x128.size a ≤ S10000x128.size a
  hwx1_7 : ∀ i : grid1.Coords, EltTy.bits .f32 = 32 ∨ (Rect.block (s := S10000x128) S400x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .bf16 = 32 ∨ (Rect.block (s := S10000x10000) S400x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .bf16 = 32 ∨ (Rect.block (s := S10000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x1.size a ≤ S10000x1.size a
  hwx2_6 : ∀ i : grid2.Coords, EltTy.bits .f32 = 32 ∨ (Rect.block (s := S10000x1) S400x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x64.size a ≤ S10000x64.size a
  hwx2_7 : ∀ i : grid2.Coords, EltTy.bits .f32 = 32 ∨ (Rect.block (s := S10000x64) S400x64.size (cc2_transform_7 i) (hinb2_7 i)).WholeWords (EltTy.packing .f32)

variable [Facts₀]

def scatter_S100000000_S640000x1_S640000_n_0_0_1 : ScatterDims S100000000 S640000x1 S640000 where
  updateWindowDims := []
  insertedWindowDims := [0]
  scatterDimsToOperandDims := [0]
  indexVectorDim := 1
  wf := scatter_S100000000_S640000x1_S640000_n_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf
def dot_S400x128_S128x64_S400x64_1_0_0_1_n_n : DotDims S400x128 S128x64 S400x64 where
  lhsContracting := [1]
  rhsContracting := [0]
  lhsNonContracting := [0]
  rhsNonContracting := [1]
  lhsBatch := []
  rhsBatch := []
  wf := dot_S400x128_S128x64_S400x64_1_0_0_1_n_n_wf

abbrev win0_0 : Pipeline.Window sig grid0 :=
  Pipeline.Window.ofSpec (Memref.whole main_v13) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S400x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S400x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v25) S400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S400x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v27) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v22) S400x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v28) S400x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v13) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v28) S400x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S400x1.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v31) S400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S10000x128 : Shape := ⟨2, ![10000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S10000 : Shape := ⟨1, ![10000]⟩
abbrev S10000x1 : Shape := ⟨2, ![10000, 1]⟩
abbrev S1x128 : Shape := ⟨2, ![1, 128]⟩
abbrev S10000x64 : Shape := ⟨2, ![10000, 64]⟩
abbrev S1x64 : Shape := ⟨2, ![1, 64]⟩

abbrev nBuf : Space → Nat
  | .hbm => 111
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S128x64, .f32⟩
  | .hbm, ⟨9, _⟩ => ⟨S64, .f32⟩
  | .hbm, ⟨10, _⟩ => ⟨S640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x128, .f32⟩
  | .hbm, ⟨21, _⟩ => ⟨S_, .f32⟩
  | .hbm, ⟨22, _⟩ => ⟨S10000x128, .f32⟩
  | .hbm, ⟨23, _⟩ => ⟨S640000x1, .i32⟩
  | .hbm, ⟨24, _⟩ => ⟨S10000x128, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S10000, .f32⟩
  | .hbm, ⟨29, _⟩ => ⟨S640000x1, .i32⟩
  | .hbm, ⟨30, _⟩ => ⟨S10000, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S10000x1, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S1x128, .f32⟩
  | .hbm, ⟨41, _⟩ => ⟨S10000x128, .f32⟩
  | .hbm, ⟨42, _⟩ => ⟨S10000x128, .f32⟩
  | .hbm, ⟨43, _⟩ => ⟨S_, .f32⟩
  | .hbm, ⟨44, _⟩ => ⟨S10000x128, .f32⟩
  | .hbm, ⟨45, _⟩ => ⟨S10000x128, .f32⟩
  | .hbm, ⟨46, _⟩ => ⟨S_, .i32⟩
  | .hbm, ⟨47, _⟩ => ⟨S640000, .i32⟩
  | .hbm, ⟨48, _⟩ => ⟨S640000, .i1⟩
  | .hbm, ⟨49, _⟩ => ⟨S_, .i32⟩
  | .hbm, ⟨50, _⟩ => ⟨S640000, .i32⟩
  | .hbm, ⟨51, _⟩ => ⟨S640000, .i32⟩
  | .hbm, ⟨52, _⟩ => ⟨S640000, .i32⟩
  | .hbm, ⟨53, _⟩ => ⟨S640000x1, .i32⟩
  | .hbm, ⟨54, _⟩ => ⟨S640000x128, .f32⟩
  | .hbm, ⟨55, _⟩ => ⟨S_, .f32⟩
  | .hbm, ⟨56, _⟩ => ⟨S10000x128, .f32⟩
  | .hbm, ⟨57, _⟩ => ⟨S640000x1, .i32⟩
  | .hbm, ⟨58, _⟩ => ⟨S10000x128, .f32⟩
  | .hbm, ⟨59, _⟩ => ⟨S_, .f32⟩
  | .hbm, ⟨60, _⟩ => ⟨S640000, .f32⟩
  | .hbm, ⟨61, _⟩ => ⟨S_, .f32⟩
  | .hbm, ⟨62, _⟩ => ⟨S10000, .f32⟩
  | .hbm, ⟨63, _⟩ => ⟨S640000x1, .i32⟩
  | .hbm, ⟨64, _⟩ => ⟨S10000, .f32⟩
  | .hbm, ⟨65, _⟩ => ⟨S_, .f32⟩
  | .hbm, ⟨66, _⟩ => ⟨S10000, .f32⟩
  | .hbm, ⟨67, _⟩ => ⟨S10000, .f32⟩
  | .hbm, ⟨68, _⟩ => ⟨S10000x1, .f32⟩
  | .hbm, ⟨69, _⟩ => ⟨S10000x128, .f32⟩
  | .hbm, ⟨70, _⟩ => ⟨S10000x128, .f32⟩
  | .hbm, ⟨71, _⟩ => ⟨S10000x128, .f32⟩
  | .hbm, ⟨72, _⟩ => ⟨S10000x128, .f32⟩
  | .hbm, ⟨73, _⟩ => ⟨S10000x128, .f32⟩
  | .hbm, ⟨74, _⟩ => ⟨S1x128, .f32⟩
  | .hbm, ⟨75, _⟩ => ⟨S10000x128, .f32⟩
  | .hbm, ⟨76, _⟩ => ⟨S10000x128, .f32⟩
  | .hbm, ⟨77, _⟩ => ⟨S_, .f32⟩
  | .hbm, ⟨78, _⟩ => ⟨S10000x128, .f32⟩
  | .hbm, ⟨79, _⟩ => ⟨S10000x128, .f32⟩
  | .hbm, ⟨80, _⟩ => ⟨S_, .i32⟩
  | .hbm, ⟨81, _⟩ => ⟨S640000, .i32⟩
  | .hbm, ⟨82, _⟩ => ⟨S640000, .i1⟩
  | .hbm, ⟨83, _⟩ => ⟨S_, .i32⟩
  | .hbm, ⟨84, _⟩ => ⟨S640000, .i32⟩
  | .hbm, ⟨85, _⟩ => ⟨S640000, .i32⟩
  | .hbm, ⟨86, _⟩ => ⟨S640000, .i32⟩
  | .hbm, ⟨87, _⟩ => ⟨S640000x1, .i32⟩
  | .hbm, ⟨88, _⟩ => ⟨S640000x128, .f32⟩
  | .hbm, ⟨89, _⟩ => ⟨S_, .f32⟩
  | .hbm, ⟨90, _⟩ => ⟨S10000x128, .f32⟩
  | .hbm, ⟨91, _⟩ => ⟨S640000x1, .i32⟩
  | .hbm, ⟨92, _⟩ => ⟨S10000x128, .f32⟩
  | .hbm, ⟨93, _⟩ => ⟨S_, .f32⟩
  | .hbm, ⟨94, _⟩ => ⟨S640000, .f32⟩
  | .hbm, ⟨95, _⟩ => ⟨S_, .f32⟩
  | .hbm, ⟨96, _⟩ => ⟨S10000, .f32⟩
  | .hbm, ⟨97, _⟩ => ⟨S640000x1, .i32⟩
  | .hbm, ⟨98, _⟩ => ⟨S10000, .f32⟩
  | .hbm, ⟨99, _⟩ => ⟨S_, .f32⟩
  | .hbm, ⟨100, _⟩ => ⟨S10000, .f32⟩
  | .hbm, ⟨101, _⟩ => ⟨S10000, .f32⟩
  | .hbm, ⟨102, _⟩ => ⟨S10000x1, .f32⟩
  | .hbm, ⟨103, _⟩ => ⟨S10000x128, .f32⟩
  | .hbm, ⟨104, _⟩ => ⟨S10000x128, .f32⟩
  | .hbm, ⟨105, _⟩ => ⟨S10000x64, .f32⟩
  | .hbm, ⟨106, _⟩ => ⟨S10000x64, .f32⟩
  | .hbm, ⟨107, _⟩ => ⟨S10000x64, .f32⟩
  | .hbm, ⟨108, _⟩ => ⟨S1x64, .f32⟩
  | .hbm, ⟨109, _⟩ => ⟨S10000x64, .f32⟩
  | .hbm, ⟨110, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_c_4 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_c_10 : Ref sig .tc := ⟨.hbm, 80, rfl⟩
abbrev main_v52 : Ref sig .tc := ⟨.hbm, 81, rfl⟩
abbrev main_v53 : Ref sig .tc := ⟨.hbm, 82, rfl⟩
abbrev main_c_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_13 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  gather_S10000x128_S640000x1_S640000x128_1_0_n_n_0_1_1128_wf : GatherDims.WF S10000x128 S640000x1 S640000x128 [1] [0] [] [0] [] 1 ![1, 128]
  scatter_S10000x128_S640000x1_S640000x128_1_0_0_1_wf : ScatterDims.WF S10000x128 S640000x1 S640000x128 [1] [0] [0] 1
  scatter_S10000_S640000x1_S640000_n_0_0_1_wf : ScatterDims.WF S10000 S640000x1 S640000 [] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def scatter_S10000x128_S640000x1_S640000x128_1_0_0_1 : ScatterDims S10000x128 S640000x1 S640000x128 where
  updateWindowDims := [1]
  insertedWindowDims := [0]
  scatterDimsToOperandDims := [0]
  indexVectorDim := 1
  wf := scatter_S10000x128_S640000x1_S640000x128_1_0_0_1_wf
def scatter_S10000_S640000x1_S640000_n_0_0_1 : ScatterDims S10000 S640000x1 S640000 where
  updateWindowDims := []
  insertedWindowDims := [0]
  scatterDimsToOperandDims := [0]
  indexVectorDim := 1
  wf := scatter_S10000_S640000x1_S640000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

class Facts : Prop extends Facts₀ where

variable [Facts]
-- ==== Proof.Spec.lean ====
/-
  The mathematics of the certificate, with no program in sight.

  A graph on 10000 nodes is given by 640000 edges: two vectors of 32-bit words, the source and the
  destination of each edge. One mean-aggregation layer sends a feature matrix h : 10000 x 128 to

      act ( h Ws  +  (mean over the edges INTO a node of the SOURCE's features) Wn  +  b ),

  the mean being the sum over the incoming edges divided by max(in-degree, 1). The same layer can be
  written "densely": with the count matrix A (A p j = number of edges j -> p) and the column
  invd p = 1 / max(in-degree p, 1) it is  act ( h Ws + ((A hb) * invd) Wn + b ).  Both forms are stated
  here entry by entry over the extended reals; that they agree is a separate theorem about sums.
-/
import Idealize.ShloMosaic.PureOps.Ideal
import Idealize.ShloMosaic.Lib.ValueIdx

noncomputable section

namespace Cert.Sage

open Idealize.ShloMosaic Idealize.ShloMosaic.ValueIdx

/-- A vector of one 32-bit word per edge. -/
abbrev Words := (⟨1, ![640000]⟩ : Shape).Idx → BitVec 32
/-- An r x c matrix of extended reals. -/
abbrev Mat (r c : Nat) := (⟨2, ![r, c]⟩ : Shape).Idx → EReal
/-- A vector of n extended reals. -/
abbrev Vec1 (n : Nat) := (⟨1, ![n]⟩ : Shape).Idx → EReal

/-- Every word, read as a signed integer, names a node: 0 ≤ word < 10000. -/
def InRange (v : Words) : Prop := ∀ e : Fin 640000, 0 ≤ (v (ix1 e)).toInt ∧ (v (ix1 e)).toInt < 10000

/-- The node a word names. Total: the word's unsigned value reduced modulo the number of nodes, which is the
    word's own value when it is in range (`node_val`). -/
def node (v : Words) (e : Fin 640000) : Fin 10000 := ⟨(v (ix1 e)).toNat % 10000, Nat.mod_lt _ (by norm_num)⟩

/-- The activation: the positive part, or nothing. -/
def act (relu : Bool) (x : EReal) : EReal := if relu then max x 0 else x

/-- The in-degree of node p: one for every edge whose destination is p. -/
def deg (dst : Words) (p : Fin 10000) : EReal := ∑ e ∈ Finset.univ.filter (fun e : Fin 640000 => node dst e = p), (1 : EReal)

/-- Column d of the features of the sources of the edges into p, summed. -/
def nbrSum (src dst : Words) (h : Mat 10000 128) (p : Fin 10000) (d : Fin 128) : EReal :=
  ∑ e ∈ Finset.univ.filter (fun e : Fin 640000 => node dst e = p), h (ix2 (node src e) d)

/-- Entry (p, q) of the mean-aggregation layer, edge by edge. -/
def meanEntry (relu : Bool) {D : Nat} (src dst : Words) (h : Mat 10000 128) (Ws Wn : Mat 128 D) (b : Vec1 D)
    (p : Fin 10000) (q : Fin D) : EReal :=
  act relu ((∑ d : Fin 128, h (ix2 p d) * Ws (ix2 d q))
    + (∑ d : Fin 128, Ideal.div (nbrSum src dst h p d) (max (deg dst p) 1) * Wn (ix2 d q))
    + b (ix1 q))

/-- The mean-aggregation layer as a matrix. -/
def meanLayer (relu : Bool) {D : Nat} (src dst : Words) (h : Mat 10000 128) (Ws Wn : Mat 128 D) (b : Vec1 D) : Mat 10000 D :=
  fun i => meanEntry relu src dst h Ws Wn b ⟨(i 0).val, idx2_lt0 i⟩ ⟨(i 1).val, idx2_lt1 i⟩

theorem meanLayer_apply (relu : Bool) {D : Nat} (src dst : Words) (h : Mat 10000 128) (Ws Wn : Mat 128 D) (b : Vec1 D)
    (p : Fin 10000) (q : Fin D) : meanLayer relu src dst h Ws Wn b (ix2 p q) = meanEntry relu src dst h Ws Wn b p q := rfl

/-- Entry (p, q) of the dense form: A the count matrix, invd the reciprocal-degree column, hb the features as the
    first product reads them (a second copy of h), b a 1 x D row. -/
def denseEntry (relu : Bool) {D : Nat} (A : Mat 10000 10000) (invd : Mat 10000 1) (hb h : Mat 10000 128)
    (Ws Wn : Mat 128 D) (b : Mat 1 D) (p : Fin 10000) (q : Fin D) : EReal :=
  act relu ((∑ d : Fin 128, h (ix2 p d) * Ws (ix2 d q))
    + (∑ d : Fin 128, ((∑ j : Fin 10000, A (ix2 p j) * hb (ix2 j d)) * invd (ix2 p 0)) * Wn (ix2 d q))
    + b (ix2 0 q))

/-- The dense form as a matrix. -/
def denseLayer (relu : Bool) {D : Nat} (A : Mat 10000 10000) (invd : Mat 10000 1) (hb h : Mat 10000 128)
    (Ws Wn : Mat 128 D) (b : Mat 1 D) : Mat 10000 D :=
  fun i => denseEntry relu A invd hb h Ws Wn b ⟨(i 0).val, idx2_lt0 i⟩ ⟨(i 1).val, idx2_lt1 i⟩

theorem denseLayer_apply (relu : Bool) {D : Nat} (A : Mat 10000 10000) (invd : Mat 10000 1) (hb h : Mat 10000 128)
    (Ws Wn : Mat 128 D) (b : Mat 1 D) (p : Fin 10000) (q : Fin D) :
    denseLayer relu A invd hb h Ws Wn b (ix2 p q) = denseEntry relu A invd hb h Ws Wn b p q := rfl

/-- Three layers: two with the positive part, the last without and 64 wide. -/
def sage3 (src dst : Words) (x : Mat 10000 128) (W1 W2 : Mat 128 128) (b0 : Vec1 128) (W4 W5 : Mat 128 128) (b1 : Vec1 128)
    (W7 W8 : Mat 128 64) (b2 : Vec1 64) : Mat 10000 64 :=
  meanLayer false src dst (meanLayer true src dst (meanLayer true src dst x W1 W2 b0) W4 W5 b1) W7 W8 b2

end Cert.Sage

end
-- ==== Proof.EdgeSums.lean ====
/-
  The dense form of a layer is its edge-by-edge form.

  If A p j counts the edges j -> p then, for any extended reals h, the row sum  ∑_j A p j * h j d  is the sum of
  h (source e) d over the edges e into p: a count times a value is that value added so many times (true at the
  infinities too, a count being a finite nonnegative number), and the edges into p are sorted by their source.
  And a product with 1 / m is the quotient by m for a real m ≥ 1.
-/
import proofs.«421933_j65781719106245_1_alg».proof.Proof.Spec
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx

/-- A sum of ones over a finite set is the number of its elements. -/
theorem sum_ones_eq_card {ι : Type*} (S : Finset ι) : ∑ _e ∈ S, (1 : EReal) = (S.card : EReal) := by
  rw [Finset.sum_const, EReal.nsmul_eq_mul, mul_one]

/-- A count times a value is that value added so many times, the infinities included. -/
theorem sum_ones_mul {ι : Type*} (S : Finset ι) (x : EReal) : (∑ _e ∈ S, (1 : EReal)) * x = ∑ _e ∈ S, x := by
  rw [sum_ones_eq_card, Finset.sum_const, EReal.nsmul_eq_mul]

/-- One term of the row sum: the count of the edges j -> p times the feature of j is the feature of the source summed
    over those edges. -/
theorem count_mul_eq_sum (src dst : Words) (A : Mat 10000 10000)
    (hA : ∀ p j : Fin 10000, A (ix2 p j)
      = ∑ e ∈ Finset.univ.filter (fun e : Fin 640000 => node dst e = p ∧ node src e = j), (1 : EReal))
    (h : Mat 10000 128) (p j : Fin 10000) (d : Fin 128) :
    A (ix2 p j) * h (ix2 j d)
      = ∑ e ∈ (Finset.univ.filter (fun e : Fin 640000 => node dst e = p)).filter (fun e => node src e = j),
          h (ix2 (node src e) d) := by
  rw [hA, sum_ones_mul, Finset.filter_filter]
  refine Finset.sum_congr rfl (fun e he => ?_)
  rw [(Finset.mem_filter.1 he).2.2]

/-- The row sum against the count matrix is the sum over the incoming edges: the edges into p sorted by their source. -/
theorem row_sum_eq_nbrSum (src dst : Words) (A : Mat 10000 10000)
    (hA : ∀ p j : Fin 10000, A (ix2 p j)
      = ∑ e ∈ Finset.univ.filter (fun e : Fin 640000 => node dst e = p ∧ node src e = j), (1 : EReal))
    (h : Mat 10000 128) (p : Fin 10000) (d : Fin 128) :
    ∑ j : Fin 10000, A (ix2 p j) * h (ix2 j d) = nbrSum src dst h p d := by
  rw [nbrSum, Finset.sum_congr rfl (fun j _ => count_mul_eq_sum src dst A hA h p j d)]
  exact Finset.sum_fiberwise _ (node src) _

/-- The divisor of the mean, max(in-degree, 1), is not zero. -/
theorem max_one_ne_zero (x : EReal) : max x 1 ≠ 0 :=
  (lt_of_lt_of_le zero_lt_one (le_max_right x 1)).ne'

/-- A product with the quotient 1 / m is the quotient by m, for m not zero. -/
theorem mul_div_one (X m : EReal) (hm : m ≠ 0) : X * Ideal.div 1 m = Ideal.div X m := by
  rw [Ideal.div, Ideal.div, if_neg hm, if_neg hm, one_mul]

/-- Entry by entry, the dense form is the mean-aggregation layer. -/
theorem denseEntry_eq_meanEntry (relu : Bool) {D : Nat} (src dst : Words) (A : Mat 10000 10000) (invd : Mat 10000 1)
    (hA : ∀ p j : Fin 10000, A (ix2 p j)
      = ∑ e ∈ Finset.univ.filter (fun e : Fin 640000 => node dst e = p ∧ node src e = j), (1 : EReal))
    (hinv : ∀ p : Fin 10000, invd (ix2 p 0) = Ideal.div 1 (max (deg dst p) 1))
    (h : Mat 10000 128) (Ws Wn : Mat 128 D) (b : Vec1 D) (b' : Mat 1 D) (hb : ∀ q : Fin D, b' (ix2 0 q) = b (ix1 q))
    (p : Fin 10000) (q : Fin D) :
    denseEntry relu A invd h h Ws Wn b' p q = meanEntry relu src dst h Ws Wn b p q := by
  have hmid : ∀ d : Fin 128, (∑ j : Fin 10000, A (ix2 p j) * h (ix2 j d)) * invd (ix2 p 0)
      = Ideal.div (nbrSum src dst h p d) (max (deg dst p) 1) := by
    intro d
    rw [row_sum_eq_nbrSum src dst A hA, hinv, mul_div_one _ _ (max_one_ne_zero _)]
  rw [denseEntry, meanEntry, hb]
  simp only [hmid]

/-- The dense form, fed the count matrix and the reciprocal-degree column of a graph, is the mean-aggregation layer of
    that graph (hb, the copy of the features the first product reads, being h itself, and the bias row b' being b). -/
theorem denseLayer_eq_meanLayer (relu : Bool) {D : Nat} (src dst : Words) (A : Mat 10000 10000) (invd : Mat 10000 1)
    (hA : ∀ p j : Fin 10000, A (ix2 p j)
      = ∑ e ∈ Finset.univ.filter (fun e : Fin 640000 => node dst e = p ∧ node src e = j), (1 : EReal))
    (hinv : ∀ p : Fin 10000, invd (ix2 p 0) = Ideal.div 1 (max (deg dst p) 1))
    (h : Mat 10000 128) (Ws Wn : Mat 128 D) (b : Vec1 D) (b' : Mat 1 D) (hb : ∀ q : Fin D, b' (ix2 0 q) = b (ix1 q)) :
    denseLayer relu A invd h h Ws Wn b' = meanLayer relu src dst h Ws Wn b := by
  funext i
  exact denseEntry_eq_meanEntry relu src dst A invd hA hinv h Ws Wn b b' hb _ _

end Cert.Sage

end
-- ==== Proof.LibIndexRead.lean ====
/-
  An accumulating scatter and a row gather, read at an index.

  For the dimension numbers jnp's `x.at[idx].add(u)`, `segment_sum` and `x[idx]` print along axis 0 — the index
  vector an [E, 1] column of words, one word per update or per gathered row —, the update e lands on row p exactly
  when word e, read signed, is p, and the gathered row e is the operand's row named by word e when that word
  is a row of the operand.
-/
import Idealize.ShloMosaic.PureOps.Ideal
import Idealize.ShloMosaic.Lib.ValueIdx

noncomputable section

namespace Cert.Sage.IndexRead

open Idealize.ShloMosaic Idealize.ShloMosaic.ValueIdx

/-- An update lands at `i` exactly when, on every axis, its start plus its window coordinate is `i`'s coordinate. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := h a
      rw [← hi]
      simp only
      omega
    · intro hi
      funext a
      apply Fin.ext
      have := hi a
      simp only
      omega
  · rename_i h
    constructor
    · intro hi; cases hi
    · intro hi
      exact absurd (fun a => by have := hi a; have := (i a).isLt; constructor <;> omega) h

section Vec
variable {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
include h1 h2 h3 h4

/-- The start of update `j` on the operand's one axis is word `j`, read signed. -/
private theorem vec_start (idx : (⟨2, ![E, 1]⟩ : Shape).Idx → BitVec 32) (j : (⟨1, ![E]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The operand's one axis is inserted: no window coordinate. -/
private theorem vec_window (j : (⟨1, ![E]⟩ : Shape).Idx) : d.window j 0 = 0 := by
  obtain ⟨uw, iw, sd, iv, wf⟩ := d
  simp only at h1 h2 h3 h4
  subst h1 h2 h3 h4
  rfl

/-- Update `j` lands on entry `p` exactly when word `j`, read signed, is `p`. -/
private theorem vec_lands (idx : (⟨2, ![E, 1]⟩ : Shape).Idx → BitVec 32) (j : (⟨1, ![E]⟩ : Shape).Idx) (p : Fin N) :
    d.resultIdx? j idx = some (ix1 p) ↔ (idx (ix2 (j 0) 0)).toInt = (p.val : Int) := by
  rw [resultIdx?_eq_some_iff]
  constructor
  · intro h
    have h0 := h 0
    rw [vec_start d h1 h2 h3 h4, vec_window d h1 h2 h3 h4, Nat.cast_zero, add_zero] at h0
    exact h0
  · intro h a
    obtain rfl : a = 0 := Subsingleton.elim _ _
    rw [vec_start d h1 h2 h3 h4, vec_window d h1 h2 h3 h4, Nat.cast_zero, add_zero]
    exact h

end Vec

/-- Accumulating a vector of E updates into a vector of N entries: entry p is what it was plus the updates whose
    word is p. -/
theorem scatterAdd_vec {N E : Nat} (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : (⟨1, ![N]⟩ : Shape).Idx → EReal) (idx : (⟨2, ![E, 1]⟩ : Shape).Idx → BitVec 32)
    (upd : (⟨1, ![E]⟩ : Shape).Idx → EReal) (p : Fin N) :
    Ideal.hostScatterAdd d x idx upd (ix1 p)
      = x (ix1 p) + ∑ e ∈ Finset.univ.filter (fun e : Fin E => (idx (ix2 e 0)).toInt = (p.val : Int)), upd (ix1 e) := by
  unfold Ideal.hostScatterAdd
  congr 1
  -- the update indices are the words' positions
  refine Finset.sum_nbij' (fun j => j 0) (fun e => ix1 e) ?_ ?_ ?_ ?_ ?_
  · intro j hj
    exact Finset.mem_filter.mpr ⟨Finset.mem_univ _, (vec_lands d h1 h2 h3 h4 idx j p).mp (Finset.mem_filter.mp hj).2⟩
  · intro e he
    exact Finset.mem_filter.mpr ⟨Finset.mem_univ _, (vec_lands d h1 h2 h3 h4 idx (ix1 e) p).mpr (Finset.mem_filter.mp he).2⟩
  · intro j _
    exact (eq_ix1 j).symm
  · intro e _
    rfl
  · intro j _
    exact congrArg upd (eq_ix1 j)

section Rows
variable {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
include h1 h2 h3 h4

/-- The start of update `j` on the operand's row axis is word `j 0`, read signed. -/
private theorem rows_start0 (idx : (⟨2, ![E, 1]⟩ : Shape).Idx → BitVec 32) (j : (⟨2, ![E, D]⟩ : Shape).Idx) :
    d.start j idx 0 = (idx (ix2 (j 0) 0)).toInt := by
  obtain ⟨uw, iw, sd, iv, wf⟩ := d
  simp only at h1 h2 h3 h4
  subst h1 h2 h3 h4
  unfold ScatterDims.start
  rw [dif_pos (List.mem_singleton.mpr rfl)]
  congr 2
  funext b
  match b with
  | ⟨0, _⟩ => rfl
  | ⟨1, _⟩ => rfl

/-- The column axis is not a scattered one: its start is 0. -/
private theorem rows_start1 (idx : (⟨2, ![E, 1]⟩ : Shape).Idx → BitVec 32) (j : (⟨2, ![E, D]⟩ : Shape).Idx) :
    d.start j idx 1 = 0 := by
  obtain ⟨uw, iw, sd, iv, wf⟩ := d
  simp only at h1 h2 h3 h4
  subst h1 h2 h3 h4
  rfl

/-- The row axis is inserted: no window coordinate. -/
private theorem rows_window0 (j : (⟨2, ![E, D]⟩ : Shape).Idx) : d.window j 0 = 0 := by
  obtain ⟨uw, iw, sd, iv, wf⟩ := d
  simp only at h1 h2 h3 h4
  subst h1 h2 h3 h4
  rfl

/-- The window coordinate on the column axis is the update's column. -/
private theorem rows_window1 (j : (⟨2, ![E, D]⟩ : Shape).Idx) : d.window j 1 = (j 1).val := by
  obtain ⟨uw, iw, sd, iv, wf⟩ := d
  simp only at h1 h2 h3 h4
  subst h1 h2 h3 h4
  rfl

/-- Update `j` lands on entry `(p, q)` exactly when word `j 0`, read signed, is `p` and its column is `q`. -/
private theorem rows_lands (idx : (⟨2, ![E, 1]⟩ : Shape).Idx → BitVec 32) (j : (⟨2, ![E, D]⟩ : Shape).Idx)
    (p : Fin N) (q : Fin D) :
    d.resultIdx? j idx = some (ix2 p q) ↔ (idx (ix2 (j 0) 0)).toInt = (p.val : Int) ∧ j 1 = q := by
  rw [resultIdx?_eq_some_iff]
  constructor
  · intro h
    have h0 := h 0
    have hc := h 1
    rw [rows_start0 d h1 h2 h3 h4, rows_window0 d h1 h2 h3 h4, Nat.cast_zero, add_zero] at h0
    rw [rows_start1 d h1 h2 h3 h4, rows_window1 d h1 h2 h3 h4, zero_add] at hc
    exact ⟨h0, Fin.ext (Int.ofNat_inj.mp hc)⟩
  · rintro ⟨h0, hq⟩
    have f0 : d.start j idx 0 + (d.window j 0 : Int) = (p.val : Int) := by
      rw [rows_start0 d h1 h2 h3 h4, rows_window0 d h1 h2 h3 h4, Nat.cast_zero, add_zero]
      exact h0
    have f1 : d.start j idx 1 + (d.window j 1 : Int) = (q.val : Int) := by
      rw [rows_start1 d h1 h2 h3 h4, rows_window1 d h1 h2 h3 h4, zero_add, hq]
    intro a
    match a with
    | ⟨0, _⟩ => exact f0
    | ⟨1, _⟩ => exact f1

end Rows

/-- Accumulating E rows of D entries into an N x D matrix: entry (p, q) is what it was plus entry q of the rows
    whose word is p. -/
theorem scatterAdd_rows {N E D : Nat} (d : ScatterDims ⟨2, ![N, D]⟩ ⟨2, ![E, 1]⟩ ⟨2, ![E, D]⟩)
    (h1 : d.updateWindowDims = [1]) (h2 : d.insertedWindowDims = [0]) (h3 : d.scatterDimsToOperandDims = [0])
    (h4 : d.indexVectorDim = 1)
    (x : (⟨2, ![N, D]⟩ : Shape).Idx → EReal) (idx : (⟨2, ![E, 1]⟩ : Shape).Idx → BitVec 32)
    (upd : (⟨2, ![E, D]⟩ : Shape).Idx → EReal) (p : Fin N) (q : Fin D) :
    Ideal.hostScatterAdd d x idx upd (ix2 p q)
      = x (ix2 p q) + ∑ e ∈ Finset.univ.filter (fun e : Fin E => (idx (ix2 e 0)).toInt = (p.val : Int)), upd (ix2 e q) := by
  unfold Ideal.hostScatterAdd
  congr 1
  -- the update indices that land in column q are the rows' positions, at column q
  refine Finset.sum_nbij' (fun j => j 0) (fun e => ix2 e q) ?_ ?_ ?_ ?_ ?_
  · intro j hj
    exact Finset.mem_filter.mpr ⟨Finset.mem_univ _, ((rows_lands d h1 h2 h3 h4 idx j p q).mp (Finset.mem_filter.mp hj).2).1⟩
  · intro e he
    exact Finset.mem_filter.mpr ⟨Finset.mem_univ _, (rows_lands d h1 h2 h3 h4 idx (ix2 e q) p q).mpr ⟨(Finset.mem_filter.mp he).2, rfl⟩⟩
  · intro j hj
    have hq := ((rows_lands d h1 h2 h3 h4 idx j p q).mp (Finset.mem_filter.mp hj).2).2
    exact (congrArg (ix2 (j 0)) hq.symm).trans (eq_ix2 j).symm
  · intro e _
    rfl
  · intro j hj
    have hq := ((rows_lands d h1 h2 h3 h4 idx j p q).mp (Finset.mem_filter.mp hj).2).2
    exact congrArg upd ((eq_ix2 j).trans (congrArg (ix2 (j 0)) hq))

section Gather
variable {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
include h1 h2 h3 h4 h5 h6 h7

/-- The slice's start on the row axis is word `j 0`, read signed and clamped into `[0, N - 1]`. -/
private theorem gather_start0 (idx : (⟨2, ![E, 1]⟩ : Shape).Idx → BitVec 32) (j : (⟨2, ![E, D]⟩ : Shape).Idx) :
    d.start j idx 0 = min (idx (ix2 (j 0) 0)).toInt.toNat (N - 1) := by
  obtain ⟨od, cd, ob, sb, sm, iv, ss, wf⟩ := d
  simp only at h1 h2 h3 h4 h5 h6 h7
  subst h1 h2 h3 h4 h5 h6 h7
  unfold GatherDims.start
  rw [dif_pos (List.mem_singleton.mpr rfl)]
  refine congrArg (fun z => min (idx z).toInt.toNat (N - 1)) ?_
  funext b
  match b with
  | ⟨0, _⟩ => rfl
  | ⟨1, _⟩ => rfl

/-- The column axis is not in the start index map: its start is 0. -/
private theorem gather_start1 (idx : (⟨2, ![E, 1]⟩ : Shape).Idx → BitVec 32) (j : (⟨2, ![E, D]⟩ : Shape).Idx) :
    d.start j idx 1 = 0 := by
  obtain ⟨od, cd, ob, sb, sm, iv, ss, wf⟩ := d
  simp only at h1 h2 h3 h4 h5 h6 h7
  subst h1 h2 h3 h4 h5 h6 h7
  rfl

/-- No batching axes: no batching coordinate. -/
private theorem gather_batch (j : (⟨2, ![E, D]⟩ : Shape).Idx) (a : Fin 2) : d.batchCoord j a = 0 :=
  d.batchCoord_eq_zero j a (by rw [h3]; exact List.not_mem_nil)

/-- The row axis is collapsed: no offset coordinate. -/
private theorem gather_off0 (j : (⟨2, ![E, D]⟩ : Shape).Idx) : d.offCoord j 0 = 0 := by
  obtain ⟨od, cd, ob, sb, sm, iv, ss, wf⟩ := d
  simp only at h1 h2 h3 h4 h5 h6 h7
  subst h1 h2 h3 h4 h5 h6 h7
  rfl

/-- The offset coordinate on the column axis is the result's column. -/
private theorem gather_off1 (j : (⟨2, ![E, D]⟩ : Shape).Idx) : d.offCoord j 1 = (j 1).val := by
  obtain ⟨od, cd, ob, sb, sm, iv, ss, wf⟩ := d
  simp only at h1 h2 h3 h4 h5 h6 h7
  subst h1 h2 h3 h4 h5 h6 h7
  rfl

end Gather

/-- Gathering E rows out of an N x D matrix: row e is the operand's row n when word e, read signed, is n. -/
theorem gather_rows {α : Type} {N E D : Nat} (d : GatherDims ⟨2, ![N, D]⟩ ⟨2, ![E, 1]⟩ ⟨2, ![E, D]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, D])
    (x : (⟨2, ![N, D]⟩ : Shape).Idx → α) (idx : (⟨2, ![E, 1]⟩ : Shape).Idx → BitVec 32) (e : Fin E) (q : Fin D)
    (n : Fin N) (hn : (idx (ix2 e 0)).toInt = (n.val : Int)) :
    Host.gather d x idx (ix2 e q) = x (ix2 n q) := by
  -- row axis: the clamped start is n (n is a row of the operand), nothing else is added
  have f0 : d.start (ix2 e q) idx 0 + d.batchCoord (ix2 e q) 0 + d.offCoord (ix2 e q) 0 = n.val := by
    rw [gather_start0 d h1 h2 h3 h4 h5 h6 h7, gather_batch d h1 h2 h3 h4 h5 h6 h7, gather_off0 d h1 h2 h3 h4 h5 h6 h7]
    show min (idx (ix2 e 0)).toInt.toNat (N - 1) + 0 + 0 = n.val
    rw [hn, Int.toNat_natCast]
    have := n.isLt
    omega
  -- column axis: the start is 0 and the offset coordinate is q
  have f1 : d.start (ix2 e q) idx 1 + d.batchCoord (ix2 e q) 1 + d.offCoord (ix2 e q) 1 = q.val := by
    rw [gather_start1 d h1 h2 h3 h4 h5 h6 h7, gather_batch d h1 h2 h3 h4 h5 h6 h7, gather_off1 d h1 h2 h3 h4 h5 h6 h7]
    show 0 + 0 + q.val = q.val
    omega
  unfold Host.gather
  congr 1
  funext a
  apply Fin.ext
  match a with
  | ⟨0, _⟩ => exact f0
  | ⟨1, _⟩ => exact f1

end Cert.Sage.IndexRead

end
-- ==== Proof.KernelHost.lean ====
/-
  What the kernel's program computes on the host before its first layer, as functions of the two edge vectors:
  the count matrix A (a scatter of ones at the flat position dst * 10000 + src of each edge into a zero vector of
  10000 * 10000 entries, cut into rows) and the column 1 / max(in-degree, 1). Read at an index, for edges whose
  words name nodes: A p j is the number of edges j -> p, and the column at p is the reciprocal of max(deg p, 1).
-/
import proofs.«421933_j65781719106245_1_alg».proof.Proof.Gen.KernelIdeal
import proofs.«421933_j65781719106245_1_alg».proof.Proof.Spec
import proofs.«421933_j65781719106245_1_alg».proof.Proof.LibIndexRead
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

set_option maxRecDepth 16384

noncomputable section

namespace Cert.Sage.KHost

open Idealize.ShloMosaic Idealize.ShloMosaic.ValueIdx Cert.KernelIdeal Cert.KernelIdeal.Gen Cert.Sage

/-- The flat position of every edge: destination times the number of nodes, plus source (32-bit arithmetic). -/
def flat (src dst : IVec S640000 32) : IVec S640000 32 :=
  addi (muli dst (broadcastInDim S640000 ![] bcast_S_S640000 (constantI S_ 32 10000#32))) src

/-- The count matrix as the program builds it. -/
def hostA (src dst : IVec S640000 32) : FVec Ideal S10000x10000 .bf16 :=
  truncf .bf16
    (fun i =>
      shapeCast S10000x10000
        (Host.scatterAdd scatter_S100000000_S640000x1_S640000_n_0_0_1
          (broadcastInDim S100000000 ![] bcast_S_S100000000 (constant (F := Ideal) S_ .f32 0#32))
          (broadcastInDim S640000x1 ![0] bcast_S640000_S640000x1_0
            (select
              (cmpi .slt (flat src dst) (broadcastInDim S640000 ![] bcast_S_S640000 (constantI S_ 32 0#32)))
              (addi (flat src dst) (broadcastInDim S640000 ![] bcast_S_S640000 (constantI S_ 32 100000000#32)))
              (flat src dst)))
          (broadcastInDim S640000 ![] bcast_S_S640000 (constant (F := Ideal) S_ .f32 1065353216#32)))
        shapeCasts_S100000000_S10000x10000 i)
    bitsLt_bf16_f32

/-- The reciprocal-degree column as the program builds it. -/
def hostInvd (dst : IVec S640000 32) : FVec Ideal S10000x1 .f32 :=
  fun i =>
    shapeCast S10000x1
      (Host.divf (broadcastInDim S10000 ![] bcast_S_S10000 (constant (F := Ideal) S_ .f32 1065353216#32))
        (maximumf
          (Host.scatterAdd scatter_S10000_S640000x1_S640000_n_0_0_1
            (broadcastInDim S10000 ![] bcast_S_S10000 (constant (F := Ideal) S_ .f32 0#32))
            (broadcastInDim S640000x1 ![0] bcast_S640000_S640000x1_0 dst)
            (broadcastInDim S640000 ![] bcast_S_S640000 (constant (F := Ideal) S_ .f32 1065353216#32)))
          (broadcastInDim S10000 ![] bcast_S_S10000 (constant (F := Ideal) S_ .f32 1065353216#32))))
      shapeCasts_S10000_S10000x1 i

/-! ## Words that name nodes -/

/-- A word that reads signed inside [0, 10000) has that unsigned value too. -/
theorem word_small (w : BitVec 32) (h0 : 0 ≤ w.toInt) (h1 : w.toInt < 10000) :
    w.toNat < 10000 ∧ w.toInt = (w.toNat : Int) := by
  have hw := w.isLt
  rw [BitVec.toInt_eq_toNat_cond] at h0 h1 ⊢
  split_ifs at h0 h1 ⊢ <;> omega

/-- Under the precondition a word's unsigned value is below the number of nodes. -/
theorem toNat_lt (v : Words) (hv : InRange v) (e : Fin 640000) : (v (ix1 e)).toNat < 10000 :=
  (word_small _ (hv e).1 (hv e).2).1

/-- Under the precondition the node a word names is the word's unsigned value. -/
theorem node_toNat (v : Words) (hv : InRange v) (e : Fin 640000) : (node v e).val = (v (ix1 e)).toNat :=
  Nat.mod_eq_of_lt (toNat_lt v hv e)

/-- Under the precondition the node a word names is the word read signed. -/
theorem node_val (v : Words) (hv : InRange v) (e : Fin 640000) : ((node v e).val : Int) = (v (ix1 e)).toInt := by
  rw [node_toNat v hv e, (word_small _ (hv e).1 (hv e).2).2]

/-! ## The reshapes, broadcasts and host operations at an index -/

/-- A vector cut into a one-column matrix reads, at (p, 0), the vector at p. -/
theorem shapeCast_col {α : Type} {n : Nat} (x : (⟨1, ![n]⟩ : Shape).Idx → α)
    (h : (⟨1, ![n]⟩ : Shape).ShapeCasts ⟨2, ![n, 1]⟩) (p : Fin n) :
    shapeCast ⟨2, ![n, 1]⟩ x h (ix2 p (0 : Fin 1)) = x (ix1 p) :=
  shapeCast_apply x h _ _ (by
    rw [Shape.rowMajor_val_two, Shape.rowMajor_val_one]
    show p.val = p.val * 1 + 0
    omega)

/-- The flat position of entry (p, j) of a 10000 x 10000 matrix. -/
def pos (p j : Fin 10000) : Fin 100000000 := ⟨p.val * 10000 + j.val, by have := p.isLt; have := j.isLt; omega⟩

/-- A vector of 10000 * 10000 entries cut into rows reads, at (p, j), the vector at p * 10000 + j. -/
theorem shapeCast_rows {α : Type} (x : S100000000.Idx → α) (h : S100000000.ShapeCasts S10000x10000) (p j : Fin 10000) :
    shapeCast S10000x10000 x h (ix2 p j) = x (ix1 (pos p j)) :=
  shapeCast_apply x h _ _ (by
    rw [Shape.rowMajor_val_two, Shape.rowMajor_val_one]
    rfl)

/-- A vector of words as a column reads, at (e, 0), the vector at e. -/
theorem column_apply (v : IVec S640000 32) (e : Fin 640000) :
    broadcastInDim S640000x1 ![0] bcast_S640000_S640000x1_0 v (ix2 e (0 : Fin 1)) = v (ix1 e) :=
  broadcastInDim_apply _ bcast_S640000_S640000x1_0 v _ (ix1 e) (fun a => match a with
    | ⟨0, _⟩ => by show e.val = if (640000 : Nat) = 1 then 0 else e.val; rw [if_neg (by decide)])

/-- The host's accumulating scatter at the ideal values is the exact sum. -/
theorem hostScatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- A scalar float constant broadcast to any shape reads the extended real its word denotes. -/
theorem splat_apply {t : Shape} (h : S_.BroadcastsInDim t ![]) (b : BitVec 32) (i : t.Idx) :
    broadcastInDim t ![] h (constant (F := Ideal) S_ .f32 b) i = Ideal.ofBits .f32 b := rfl

/-- A scalar word constant broadcast to any shape reads the word. -/
theorem splatI_apply {t : Shape} (h : S_.BroadcastsInDim t ![]) (b : BitVec 32) (i : t.Idx) :
    broadcastInDim t ![] h (constantI S_ 32 b) i = b := rfl

/-! ## The reciprocal-degree column -/

/-- The scatter of ones at the destinations into a zero vector counts, at p, the edges into p. -/
theorem degScatter_apply (dst : Words) (hd : InRange dst) (p : Fin 10000) :
    Ideal.hostScatterAdd scatter_S10000_S640000x1_S640000_n_0_0_1
        (broadcastInDim S10000 ![] bcast_S_S10000 (constant (F := Ideal) S_ .f32 0#32))
        (broadcastInDim S640000x1 ![0] bcast_S640000_S640000x1_0 dst)
        (broadcastInDim S640000 ![] bcast_S_S640000 (constant (F := Ideal) S_ .f32 1065353216#32)) (ix1 p)
      = deg dst p := by
  rw [IndexRead.scatterAdd_vec _ rfl rfl rfl rfl, splat_apply, Ideal.ofBits_zero_f32, zero_add]
  unfold deg
  refine Finset.sum_congr (Finset.filter_congr fun e _ => ?_)
    (fun e _ => (splat_apply _ _ _).trans Ideal.ofBits_one_f32)
  rw [column_apply, ← node_val dst hd e]
  constructor
  · intro h; exact Fin.ext (by exact_mod_cast h)
  · intro h; rw [h]

/-- Entry p of the column is one over the larger of the in-degree of p and one. -/
theorem hostInvd_apply (dst : Words) (hd : InRange dst) (p : Fin 10000) :
    hostInvd dst (ix2 p 0) = Ideal.div 1 (max (deg dst p) 1) := by
  unfold hostInvd
  refine (shapeCast_col _ shapeCasts_S10000_S10000x1 p).trans ?_
  rw [hostDivf_apply, maximumf_apply, splat_apply, hostScatterAdd_eq, degScatter_apply dst hd p,
    Ideal.ofBits_one_f32]

/-! ## The count matrix -/

/-- The flat position of edge e as the program computes it, word by word. -/
theorem flat_apply (src dst : Words) (e : Fin 640000) :
    flat src dst (ix1 e) = IntOp.addi (IntOp.muli (dst (ix1 e)) 10000#32) (src (ix1 e)) := rfl

/-- Destination times 10000 plus source, in 32-bit words, does not wrap for words that name nodes. -/
theorem flatWord_toNat (d s : BitVec 32) (hd : d.toNat < 10000) (hs : s.toNat < 10000) :
    (IntOp.addi (IntOp.muli d 10000#32) s).toNat = d.toNat * 10000 + s.toNat := by
  show (d * 10000#32 + s).toNat = _
  rw [BitVec.toNat_add, BitVec.toNat_mul, BitVec.toNat_ofNat]
  omega

/-- The wrap-around of a negative position is not taken: the position of a pair of nodes is not negative. -/
theorem flatWord_select (f a : BitVec 32) (hf : f.toNat < 2 ^ 31) :
    Scalar.select (IntOp.cmpi .slt f 0#32) a f = f := by
  have hne : ¬ IntOp.cmpi .slt f 0#32 = 1#1 := by
    rw [StableHlo.Predicate.slt_iff_toNat hf (by decide)]
    exact Nat.not_lt_zero _
  exact if_neg hne

/-- The index word of edge e, read signed, is the flat position of (destination, source). -/
theorem indexWord_apply (src dst : Words) (hs : InRange src) (hd : InRange dst) (e : Fin 640000) :
    (broadcastInDim S640000x1 ![0] bcast_S640000_S640000x1_0
        (select
          (cmpi .slt (flat src dst) (broadcastInDim S640000 ![] bcast_S_S640000 (constantI S_ 32 0#32)))
          (addi (flat src dst) (broadcastInDim S640000 ![] bcast_S_S640000 (constantI S_ 32 100000000#32)))
          (flat src dst)) (ix2 e (0 : Fin 1))).toInt
      = (((node dst e).val * 10000 + (node src e).val : Nat) : Int) := by
  have hdn := toNat_lt dst hd e
  have hsn := toNat_lt src hs e
  have hf := flatWord_toNat _ _ hdn hsn
  have hlt : (flat src dst (ix1 e)).toNat < 2 ^ 31 := by rw [flat_apply, hf]; omega
  rw [column_apply, select_apply]
  have hc : cmpi .slt (flat src dst) (broadcastInDim S640000 ![] bcast_S_S640000 (constantI S_ 32 0#32)) (ix1 e)
      = IntOp.cmpi .slt (flat src dst (ix1 e)) 0#32 := rfl
  rw [hc, flatWord_select _ _ hlt, StableHlo.Predicate.toInt_eq_toNat_of_lt hlt, flat_apply, hf,
    node_toNat dst hd e, node_toNat src hs e]

/-- Entry (p, j) of the count matrix is the number of edges from j to p. -/
theorem hostA_apply (src dst : Words) (hs : InRange src) (hd : InRange dst) (p j : Fin 10000) :
    hostA src dst (ix2 p j)
      = ∑ e ∈ Finset.univ.filter (fun e : Fin 640000 => node dst e = p ∧ node src e = j), (1 : EReal) := by
  unfold hostA
  rw [truncf_apply]
  refine (shapeCast_rows _ shapeCasts_S100000000_S10000x10000 p j).trans ?_
  rw [hostScatterAdd_eq, IndexRead.scatterAdd_vec _ rfl rfl rfl rfl, splat_apply, Ideal.ofBits_zero_f32, zero_add]
  refine Finset.sum_congr (Finset.filter_congr fun e _ => ?_)
    (fun e _ => (splat_apply _ _ _).trans Ideal.ofBits_one_f32)
  rw [indexWord_apply src dst hs hd e]
  have hp := p.isLt
  have hj := j.isLt
  have h1 := (node dst e).isLt
  have h2 := (node src e).isLt
  show (((node dst e).val * 10000 + (node src e).val : Nat) : Int) = ((p.val * 10000 + j.val : Nat) : Int) ↔ _
  rw [Fin.ext_iff, Fin.ext_iff]
  omega

end Cert.Sage.KHost

end
-- ==== Proof.Region0.lean ====
/-
  Region 0 of the program, as one function of the arrays it finds: after the last grid point its output array is the
  dense form of a layer (Spec.lean `denseLayer`) of its seven operand arrays — the count matrix, the features as the
  first product reads them, the features, the two weight matrices, the bias row and the reciprocal-degree column.
  Each of the 25 grid points writes 400 rows; the rows of a point's block depend on the same rows of the row-tiled
  operands and on the whole of the others; the 25 blocks cover the array.
-/
import proofs.«421933_j65781719106245_1_alg».proof.Proof.Gen.KernelIdeal.Frame
import proofs.«421933_j65781719106245_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Sage.Region0

open Idealize.ShloMosaic Idealize.ShloMosaic.TcCoe Idealize.ShloMosaic.ValueIdx Idealize.SL.Sem
open Cert.KernelIdeal Cert.KernelIdeal.Gen Cert.Sage

/-! ## The two products, entry by entry -/

/-- The [400,10000] × [10000,128] product: the left operand is read at the output's row -/
theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- and the summation index, -/
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- the right operand at the summation index -/
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- and the output's column. -/
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (r, d) of the [400,10000] × [10000,128] product into the zero matrix is the sum over the 10000 inner indices. -/
theorem matmulA_apply (a : FVec Ideal S400x10000 .bf16) (b : FVec Ideal S10000x128 .bf16) (r : Fin 400) (d : Fin 128) :
    matmul dot_S400x10000_S10000x128_S400x128_1_0_0_1_n_n none a b (constant (F := Ideal) S400x128 .f32 0x00000000#32) (ix2 r d)
      = ∑ j : Fin 10000, a (ix2 r j) * b (ix2 j d) := by
  refine (Ideal.matmul_constant_zero_apply dot_S400x10000_S10000x128_S400x128_1_0_0_1_n_n none a b (ix2 r d)).trans ?_
  rw [← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r d) ((ValueIdx.contrEquiv1 dot_S400x10000_S10000x128_S400x128_1_0_0_1_n_n 10000 rfl rfl).symm k) = ix2 r k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 r d) ((ValueIdx.contrEquiv1 dot_S400x10000_S10000x128_S400x128_1_0_0_1_n_n 10000 rfl rfl).symm k) = ix2 k d := funext fun a => Fin.ext (by
    match a with
    | ⟨0, _⟩ => exact (rhsA_0 _ _).trans hk
    | ⟨1, _⟩ => exact rhsA_1 _ _)
  rw [el, er]

/-- The [400,128] × [128,128] product: the left operand is read at the output's row -/
theorem lhsB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
/-- and the summation index, -/
theorem lhsB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
/-- the right operand at the summation index -/
theorem rhsB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
/-- and the output's column. -/
theorem rhsB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (r, q) of the [400,128] × [128,128] product into the zero matrix is the sum over the 128 inner indices. -/
theorem matmulB_apply (a : FVec Ideal S400x128 .f32) (b : FVec Ideal S128x128 .f32) (r : Fin 400) (q : Fin 128) :
    matmul dot_S400x128_S128x128_S400x128_1_0_0_1_n_n none a b (constant (F := Ideal) S400x128 .f32 0x00000000#32) (ix2 r q)
      = ∑ d : Fin 128, a (ix2 r d) * b (ix2 d q) := by
  refine (Ideal.matmul_constant_zero_apply dot_S400x128_S128x128_S400x128_1_0_0_1_n_n none a b (ix2 r q)).trans ?_
  rw [← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 r q) ((ValueIdx.contrEquiv1 dot_S400x128_S128x128_S400x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S400x128_S128x128_S400x128_1_0_0_1_n_n.rhsIdx (ix2 r q) ((ValueIdx.contrEquiv1 dot_S400x128_S128x128_S400x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The column broadcast -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry -/

/-- Entry (r, q) of what the body stores: the layer's dense form on the body's seven operands. -/
theorem pay_apply (x0 : FVec Ideal S400x10000 .bf16) (x1 : FVec Ideal S10000x128 .bf16) (x6 : FVec Ideal S400x1 .f32)
    (x2 : FVec Ideal S400x128 .f32) (x3 x4 : FVec Ideal S128x128 .f32) (x5 : FVec Ideal S1x128 .f32) (r : Fin 400) (q : Fin 128) :
    k0_pay1 (F := Ideal) x0 x1 x6 x2 x3 x4 x5 (ix2 r q)
      = act true ((∑ d : Fin 128, x2 (ix2 r d) * x3 (ix2 d q))
          + (∑ d : Fin 128, ((∑ j : Fin 10000, x0 (ix2 r j) * x1 (ix2 j d)) * x6 (ix2 r 0)) * x4 (ix2 d q))
          + x5 (ix2 0 q)) := by
  unfold k0_pay1
  simp only [shapeCast_self, maximumf_apply, addf_apply, mulf_apply, broadcast_apply, matmulB_apply, matmulA_apply, broadcastTo_a1_ab_apply, broadcastTo_1b_ab_apply]
  show max _ (Ideal.ofBits .f32 0x00000000#32) = _
  rw [Ideal.ofBits_zero_f32]
  unfold act
  rw [if_pos rfl]

variable (V : (c : Dev nD) → (b : Ref sig .tc) → Buf (Elt Ideal) ((c : Thread nD τ).loc b))

/-! ## From the blocks to the array -/

theorem hz : (![0, 0] : Fin 2 → Nat) = fun _ => 0 := funext fun a => by
  match a with
  | ⟨0, _⟩ => rfl
  | ⟨1, _⟩ => rfl

/-- The index maps over the grid: the row-tiled windows move with the output's block, whose block index is the point's number; the
    others stay at block (0, 0). -/
theorem idx_facts : ∀ t : Fin cfg0.N,
    win0_0.index t (0 : Fin 2) = win0_7.index t (0 : Fin 2) ∧ win0_0.index t (1 : Fin 2) = 0
    ∧ win0_1.index t (0 : Fin 2) = 0 ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = win0_7.index t (0 : Fin 2) ∧ win0_6.index t (1 : Fin 2) = 0
    ∧ win0_7.index t (0 : Fin 2) = t.val ∧ win0_7.index t (1 : Fin 2) = 0 :=
  (by decide +kernel : ∀ t : Fin grid0.N, _)

/-! Each window's block at point `t`, read at an entry: rows `400 t + r` of the row-tiled arrays, the whole of the others. -/

/-- The count matrix's block: its rows `400 t + r`. -/
theorem blk0_apply (c : Dev nD) (t : Fin cfg0.N) (p : Fin 10000) (r : Fin 400)
    (hp : p.val = win0_7.index t (0 : Fin 2) * 400 + r.val) (j : Fin 10000) :
    iblk0 V c 0 t (ix2 r j) = V c main_v13 (ix2 p j) := by
  obtain ⟨e0, e1, -⟩ := idx_facts t
  show V c main_v13 (((cfg0.win 0).blk t).view.emb (ix2 r j)) = V c main_v13 (ix2 p j)
  refine congrArg (V c main_v13) (funext fun a => Fin.ext ?_)
  match a with
  | ⟨0, _⟩ => show win0_0.index t (0 : Fin 2) * 400 + 1 * r.val = p.val; omega
  | ⟨1, _⟩ => show win0_0.index t (1 : Fin 2) * 10000 + 1 * j.val = j.val; omega

/-- The features as the first product reads them: the whole array. -/
theorem blk1_apply (c : Dev nD) (t : Fin cfg0.N) (j : Fin 10000) (d : Fin 128) :
    iblk0 V c 1 t (ix2 j d) = V c main_v23 (ix2 j d) := by
  obtain ⟨-, -, e0, e1, -⟩ := idx_facts t
  show V c main_v23 (((cfg0.win 1).blk t).view.emb (ix2 j d)) = V c main_v23 (ix2 j d)
  refine congrArg (V c main_v23) (funext fun a => Fin.ext ?_)
  match a with
  | ⟨0, _⟩ => show win0_1.index t (0 : Fin 2) * 10000 + 1 * j.val = j.val; omega
  | ⟨1, _⟩ => show win0_1.index t (1 : Fin 2) * 128 + 1 * d.val = d.val; omega

/-- The features' block: their rows `400 t + r`. -/
theorem blk2_apply (c : Dev nD) (t : Fin cfg0.N) (p : Fin 10000) (r : Fin 400)
    (hp : p.val = win0_7.index t (0 : Fin 2) * 400 + r.val) (d : Fin 128) :
    iblk0 V c 2 t (ix2 r d) = V c main_arg0 (ix2 p d) := by
  obtain ⟨-, -, -, -, e0, e1, -⟩ := idx_facts t
  show V c main_arg0 (((cfg0.win 2).blk t).view.emb (ix2 r d)) = V c main_arg0 (ix2 p d)
  refine congrArg (V c main_arg0) (funext fun a => Fin.ext ?_)
  match a with
  | ⟨0, _⟩ => show win0_2.index t (0 : Fin 2) * 400 + 1 * r.val = p.val; omega
  | ⟨1, _⟩ => show win0_2.index t (1 : Fin 2) * 128 + 1 * d.val = d.val; omega

/-- The first weight matrix: the whole array. -/
theorem blk3_apply (c : Dev nD) (t : Fin cfg0.N) (d q : Fin 128) :
    iblk0 V c 3 t (ix2 d q) = V c main_arg1 (ix2 d q) := by
  obtain ⟨-, -, -, -, -, -, e0, e1, -⟩ := idx_facts t
  show V c main_arg1 (((cfg0.win 3).blk t).view.emb (ix2 d q)) = V c main_arg1 (ix2 d q)
  refine congrArg (V c main_arg1) (funext fun a => Fin.ext ?_)
  match a with
  | ⟨0, _⟩ => show win0_3.index t (0 : Fin 2) * 128 + 1 * d.val = d.val; omega
  | ⟨1, _⟩ => show win0_3.index t (1 : Fin 2) * 128 + 1 * q.val = q.val; omega

/-- The second weight matrix: the whole array. -/
theorem blk4_apply (c : Dev nD) (t : Fin cfg0.N) (d q : Fin 128) :
    iblk0 V c 4 t (ix2 d q) = V c main_arg2 (ix2 d q) := by
  obtain ⟨-, -, -, -, -, -, -, -, e0, e1, -⟩ := idx_facts t
  show V c main_arg2 (((cfg0.win 4).blk t).view.emb (ix2 d q)) = V c main_arg2 (ix2 d q)
  refine congrArg (V c main_arg2) (funext fun a => Fin.ext ?_)
  match a with
  | ⟨0, _⟩ => show win0_4.index t (0 : Fin 2) * 128 + 1 * d.val = d.val; omega
  | ⟨1, _⟩ => show win0_4.index t (1 : Fin 2) * 128 + 1 * q.val = q.val; omega

/-- The bias row: the whole array. -/
theorem blk5_apply (c : Dev nD) (t : Fin cfg0.N) (z : Fin 1) (q : Fin 128) :
    iblk0 V c 5 t (ix2 z q) = V c main_v24 (ix2 z q) := by
  obtain ⟨-, -, -, -, -, -, -, -, -, -, e0, e1, -⟩ := idx_facts t
  show V c main_v24 (((cfg0.win 5).blk t).view.emb (ix2 z q)) = V c main_v24 (ix2 z q)
  refine congrArg (V c main_v24) (funext fun a => Fin.ext ?_)
  match a with
  | ⟨0, _⟩ => show win0_5.index t (0 : Fin 2) * 1 + 1 * z.val = z.val; omega
  | ⟨1, _⟩ => show win0_5.index t (1 : Fin 2) * 128 + 1 * q.val = q.val; omega

/-- The reciprocal-degree column's block: its rows `400 t + r`. -/
theorem blk6_apply (c : Dev nD) (t : Fin cfg0.N) (p : Fin 10000) (r : Fin 400)
    (hp : p.val = win0_7.index t (0 : Fin 2) * 400 + r.val) (z : Fin 1) :
    iblk0 V c 6 t (ix2 r z) = V c main_v22 (ix2 p z) := by
  obtain ⟨-, -, -, -, -, -, -, -, -, -, -, -, e0, e1, -⟩ := idx_facts t
  show V c main_v22 (((cfg0.win 6).blk t).view.emb (ix2 r z)) = V c main_v22 (ix2 p z)
  refine congrArg (V c main_v22) (funext fun a => Fin.ext ?_)
  match a with
  | ⟨0, _⟩ => show win0_6.index t (0 : Fin 2) * 400 + 1 * r.val = p.val; omega
  | ⟨1, _⟩ => show win0_6.index t (1 : Fin 2) * 1 + 1 * z.val = z.val; omega

/-- What point `t` writes back is block `t` of the layer's dense form of the operand arrays as the region finds them. -/
theorem flushed_eq (c : Dev nD) (t : Fin cfg0.N) :
    (dat0 (F := Ideal) V c).flushed 7 t = ((cfg0.win 7).blk t).view.read (Elt Ideal) (denseLayer true (V c main_v13) (V c main_v22) (V c main_v23) (V c main_arg0) (V c main_arg1) (V c main_arg2) (V c main_v24)) := by
  show (cfg0.win 7).cut (grid0.coords t) ((dat0 V c).after 7 t) = _
  rw [after0_7]
  unfold out0_7
  rw [View.canon_unit_zero hz]
  simp only [View.ld_unit_zero (S := S400x10000) hz, View.ld_unit_zero (S := S10000x128) hz, View.ld_unit_zero (S := S400x1) hz,
    View.ld_unit_zero (S := S400x128) hz, View.ld_unit_zero (S := S128x128) hz, View.ld_unit_zero (S := S1x128) hz]
  funext y
  obtain ⟨r, q, rfl⟩ : ∃ (r : Fin 400) (q : Fin 128), y = ix2 r q := ⟨y 0, y 1, eq_ix2 y⟩
  have hN : cfg0.N = 25 := N_0
  have ht : t.val < 25 := hN ▸ t.isLt
  obtain ⟨e70, e71⟩ := (idx_facts t).2.2.2.2.2.2.2.2.2.2.2.2.2.2
  have hr : r.val < 400 := r.isLt
  -- the array's row this entry of the block is
  obtain ⟨p, hp⟩ : ∃ p : Fin 10000, p.val = win0_7.index t (0 : Fin 2) * 400 + r.val := ⟨⟨_, by omega⟩, rfl⟩
  have hemb : ((cfg0.win 7).blk t).view.emb (ix2 r q) = ix2 p q :=
    funext fun a => Fin.ext (by
      match a with
      | ⟨0, _⟩ => show win0_7.index t (0 : Fin 2) * 400 + 1 * r.val = p.val; omega
      | ⟨1, _⟩ => show win0_7.index t (1 : Fin 2) * 128 + 1 * q.val = q.val; omega)
  show k0_pay1 (F := Ideal) (iblk0 V c 0 t) (iblk0 V c 1 t) (iblk0 V c 6 t) (iblk0 V c 2 t) (iblk0 V c 3 t) (iblk0 V c 4 t) (iblk0 V c 5 t) (ix2 r q)
    = denseLayer true (V c main_v13) (V c main_v22) (V c main_v23) (V c main_arg0) (V c main_arg1) (V c main_arg2) (V c main_v24) (((cfg0.win 7).blk t).view.emb (ix2 r q))
  rw [hemb, denseLayer_apply]
  refine (pay_apply (iblk0 V c 0 t) (iblk0 V c 1 t) (iblk0 V c 6 t) (iblk0 V c 2 t) (iblk0 V c 3 t) (iblk0 V c 4 t) (iblk0 V c 5 t) r q).trans ?_
  unfold denseEntry
  simp only [blk0_apply V c t p r hp, blk1_apply V c t, blk2_apply V c t p r hp, blk3_apply V c t, blk4_apply V c t, blk5_apply V c t,
    blk6_apply V c t p r hp]

/-- An index of the array is in point `t`'s block iff each coordinate is in the block's range on its axis. -/
theorem mem_blk (t : Fin cfg0.N) (i : S10000x128.Idx) :
    i ∈ ((cfg0.win 7).blk t).view.set ↔ ∀ a : Fin 2, win0_7.index t a * S400x128.size a ≤ (i a).val ∧ (i a).val < win0_7.index t a * S400x128.size a + S400x128.size a := by
  show i ∈ ((View.whole main_v25).slice (win0_7.rect t)).set ↔ _
  rw [View.set_slice_whole, Rect.mem_set_unit]
  exact Iff.rfl

/-- The 25 blocks cover the array: row `p` is in the block of point `p / 400`. -/
theorem cover (i : S10000x128.Idx) : ∃ t : Fin cfg0.N, (cfg0.win 7).flush t = true ∧ i ∈ ((cfg0.win 7).blk t).view.set := by
  have hi0 : (i 0).val < 10000 := (i 0).isLt
  have hi1 : (i 1).val < 128 := (i 1).isLt
  have hN : cfg0.N = 25 := N_0
  obtain ⟨t, htv⟩ : ∃ t : Fin cfg0.N, t.val = (i 0).val / 400 :=
    ⟨⟨(i 0).val / 400, lt_of_lt_of_eq (by omega : (i 0).val / 400 < 25) hN.symm⟩, rfl⟩
  obtain ⟨e70, e71⟩ := (idx_facts t).2.2.2.2.2.2.2.2.2.2.2.2.2.2
  refine ⟨t, flush0_7 t, ?_⟩
  rw [mem_blk]
  intro a
  match a with
  | ⟨0, _⟩ => show win0_7.index t (0 : Fin 2) * 400 ≤ (i 0).val ∧ (i 0).val < win0_7.index t (0 : Fin 2) * 400 + 400; omega
  | ⟨1, _⟩ => show win0_7.index t (1 : Fin 2) * 128 ≤ (i 1).val ∧ (i 1).val < win0_7.index t (1 : Fin 2) * 128 + 128; omega

/-- The output array of region 0 after its last grid point. -/
theorem final (c : Dev nD) :
    (dat0 (F := Ideal) V c).arrAt 7 cfg0.N
      = denseLayer true (V c main_v13) (V c main_v22) (V c main_v23) (V c main_arg0) (V c main_arg1) (V c main_arg2) (V c main_v24) :=
  (dat0 (F := Ideal) V c).arrAt_eq_of_cover 7 (denseLayer true (V c main_v13) (V c main_v22) (V c main_v23) (V c main_arg0) (V c main_arg1) (V c main_arg2) (V c main_v24))
    (fun t _ => flushed_eq V c t) cover

end Cert.Sage.Region0

end
-- ==== Proof.Region1.lean ====
/-
  Region 1 of the program, as one function of the arrays it finds: after the last grid point its output array is the
  dense form of a layer (Spec.lean `denseLayer`) of its seven operand arrays — the count matrix, the features as the
  first product reads them, the features, the two weight matrices, the bias row and the reciprocal-degree column.
  Each of the 25 grid points writes 400 rows; the rows of a point's block depend on the same rows of the row-tiled
  operands and on the whole of the others; the 25 blocks cover the array.
-/
import proofs.«421933_j65781719106245_1_alg».proof.Proof.Gen.KernelIdeal.Frame
import proofs.«421933_j65781719106245_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Sage.Region1

open Idealize.ShloMosaic Idealize.ShloMosaic.TcCoe Idealize.ShloMosaic.ValueIdx Idealize.SL.Sem
open Cert.KernelIdeal Cert.KernelIdeal.Gen Cert.Sage

/-! ## The two products of the body, read at an entry -/

/-! The first product is a 400 x 10000 tile times a 10000 x 128 matrix: at the output entry `i` and the contraction
index `q` the left operand is read at (i 0, q) and the right at (q, i 1). -/

theorem lhsA_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem lhsA_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
theorem rhsA_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
theorem rhsA_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- Entry (r, d) of the first product into the zero splat: the row of the tile against the column of the matrix. -/
theorem matmulA_apply (a : FVec Ideal S400x10000 .bf16) (b : FVec Ideal S10000x128 .bf16) (r : Fin 400) (d : Fin 128) :
    matmul dot_S400x10000_S10000x128_S400x128_1_0_0_1_n_n none a b (constant (F := Ideal) S400x128 .f32 0x00000000#32) (ix2 r d)
      = ∑ j : Fin 10000, a (ix2 r j) * b (ix2 j d) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r d) ((ValueIdx.contrEquiv1 dot_S400x10000_S10000x128_S400x128_1_0_0_1_n_n 10000 rfl rfl).symm k) = ix2 r k := funext fun a => Fin.ext (by
    match a with
    | ⟨0, _⟩ => exact lhsA_0 _ _
    | ⟨1, _⟩ => exact (lhsA_1 _ _).trans hk)
  have er : dot_S400x10000_S10000x128_S400x128_1_0_0_1_n_n.rhsIdx (ix2 r d) ((ValueIdx.contrEquiv1 dot_S400x10000_S10000x128_S400x128_1_0_0_1_n_n 10000 rfl rfl).symm k) = ix2 k d := funext fun a => Fin.ext (by
    match a with
    | ⟨0, _⟩ => exact (rhsA_0 _ _).trans hk
    | ⟨1, _⟩ => exact rhsA_1 _ _)
  rw [el, er]

/-! The two 128-wide products are a 400 x 128 tile times a 128 x 128 matrix, read the same way. -/

theorem lhsB_0 (i : S400x128.Idx) (q : dot_S400x128_S128x128_S400x128_1_0_0_1_n_n.contr.Idx) :
    (dot_S400x128_S128x128_S400x128_1_0_0_1_n_n.lhsIdx i q 0).val = (i 0).val := by
  unfold DotDims.lhsIdx
  rw [dif_neg (show ¬(0 : Fin S400x128.rank) ∈ dot_S400x128_S128x128_S400x128_1_0_0_1_n_n.lhsBatch by decide), dif_pos (show (0 : Fin S400x128.rank) ∈ dot_S400x128_S128x128_S400x128_1_0_0_1_n_n.lhsNonContracting by decide)]
  rfl
theorem lhsB_1 (i : S400x128.Idx) (q : dot_S400x128_S128x128_S400x128_1_0_0_1_n_n.contr.Idx) :
    (dot_S400x128_S128x128_S400x128_1_0_0_1_n_n.lhsIdx i q 1).val = (q ⟨0, by decide⟩).val :=
  dot_S400x128_S128x128_S400x128_1_0_0_1_n_n.lhsIdx_val_of_single rfl i q
theorem rhsB_0 (i : S400x128.Idx) (q : dot_S400x128_S128x128_S400x128_1_0_0_1_n_n.contr.Idx) :
    (dot_S400x128_S128x128_S400x128_1_0_0_1_n_n.rhsIdx i q 0).val = (q ⟨0, by decide⟩).val :=
  dot_S400x128_S128x128_S400x128_1_0_0_1_n_n.rhsIdx_val_of_single rfl i q
theorem rhsB_1 (i : S400x128.Idx) (q : dot_S400x128_S128x128_S400x128_1_0_0_1_n_n.contr.Idx) :
    (dot_S400x128_S128x128_S400x128_1_0_0_1_n_n.rhsIdx i q 1).val = (i 1).val := by
  unfold DotDims.rhsIdx
  rw [dif_neg (show ¬(1 : Fin S128x128.rank) ∈ dot_S400x128_S128x128_S400x128_1_0_0_1_n_n.rhsBatch by decide), dif_pos (show (1 : Fin S128x128.rank) ∈ dot_S400x128_S128x128_S400x128_1_0_0_1_n_n.rhsNonContracting by decide)]
  rfl

/-- Entry (r, q) of a 128-wide product into the zero splat. -/
theorem matmulB_apply (a : FVec Ideal S400x128 .f32) (b : FVec Ideal S128x128 .f32) (r : Fin 400) (q : Fin 128) :
    matmul dot_S400x128_S128x128_S400x128_1_0_0_1_n_n none a b (constant (F := Ideal) S400x128 .f32 0x00000000#32) (ix2 r q)
      = ∑ d : Fin 128, a (ix2 r d) * b (ix2 d q) := by
  simp only [matmul]
  rw [Ideal.matmul_constant_zero_apply, ← Equiv.sum_comp (ValueIdx.contrEquiv1 dot_S400x128_S128x128_S400x128_1_0_0_1_n_n 128 rfl rfl).symm]
  refine Finset.sum_congr rfl fun k _ => ?_
  have hk := ValueIdx.contrEquiv1_symm_val dot_S400x128_S128x128_S400x128_1_0_0_1_n_n 128 rfl rfl k
  have el : dot_S400x128_S128x128_S400x128_1_0_0_1_n_n.lhsIdx (ix2 r q) ((ValueIdx.contrEquiv1 dot_S400x128_S128x128_S400x128_1_0_0_1_n_n 128 rfl rfl).symm k) = ix2 r k := funext fun a => Fin.ext (by
    match a with
    | ⟨0, _⟩ => exact lhsB_0 _ _
    | ⟨1, _⟩ => exact (lhsB_1 _ _).trans hk)
  have er : dot_S400x128_S128x128_S400x128_1_0_0_1_n_n.rhsIdx (ix2 r q) ((ValueIdx.contrEquiv1 dot_S400x128_S128x128_S400x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## The body's value at an entry -/

/-- A column broadcast along the rows' entries: an `[a, 1]` array broadcast to `[a, b]` reads, at `(p, c)`, the
    operand's row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- What the body stores at entry (r, q) of its output block, from the seven blocks it loads: the positive part of
    the feature row against the self weights, plus the aggregated row (counts against the features, scaled by the
    reciprocal degree) against the neighbour weights, plus the bias. -/
theorem pay_apply (a : Vec Ideal S400x10000 .bf16) (hb : Vec Ideal S10000x128 .bf16) (invd : Vec Ideal S400x1 .f32)
    (h : Vec Ideal S400x128 .f32) (ws wn : Vec Ideal S128x128 .f32) (b : Vec Ideal S1x128 .f32) (r : Fin 400) (q : Fin 128) :
    k1_pay1 (F := Ideal) a hb invd h ws wn b (ix2 r q)
      = act true ((∑ d : Fin 128, h (ix2 r d) * ws (ix2 d q))
          + (∑ d : Fin 128, ((∑ j : Fin 10000, a (ix2 r j) * hb (ix2 j d)) * invd (ix2 r 0)) * wn (ix2 d q))
          + b (ix2 0 q)) := by
  unfold k1_pay1
  simp only [shapeCast_self]
  refine (maximumf_apply _ _ _).trans ?_
  rw [broadcast_apply, addf_apply, addf_apply, matmulB_apply, matmulB_apply]
  rw [broadcastTo_1b_ab_apply]
  simp only [mulf_apply, matmulA_apply, broadcastTo_a1_ab_apply]
  show max _ (Ideal.ofBits .f32 0x00000000#32) = _
  rw [Ideal.ofBits_zero_f32]
  rfl

/-! ## The blocks a point loads, and the rows of the arrays they are -/

variable (V : (c : Dev nD) → (b : Ref sig .tc) → Buf (Elt Ideal) ((c : Thread nD τ).loc b))

theorem zero_offsets : (![0, 0] : Fin 2 → Nat) = fun _ => 0 := funext fun a => by fin_cases a <;> rfl

/-- The count matrix as the region finds it. -/
abbrev arrA (c : Dev nD) : Mat 10000 10000 := V c main_v13
/-- The reciprocal-degree column. -/
abbrev arrInvd (c : Dev nD) : Mat 10000 1 := V c main_v22
/-- The features as the first product reads them. -/
abbrev arrHb (c : Dev nD) : Mat 10000 128 := V c main_v26
/-- The features. -/
abbrev arrH (c : Dev nD) : Mat 10000 128 := V c main_v25
/-- The self weights. -/
abbrev arrWs (c : Dev nD) : Mat 128 128 := V c main_arg4
/-- The neighbour weights. -/
abbrev arrWn (c : Dev nD) : Mat 128 128 := V c main_arg5
/-- The bias row. -/
abbrev arrB (c : Dev nD) : Mat 1 128 := V c main_v27

/-- The count-matrix tile point `t` loads. -/
abbrev blkA (c : Dev nD) (t : Fin cfg1.N) : Vec Ideal S400x10000 .bf16 := iblk1 V c 0 t
/-- The features it loads for the first product (all of them). -/
abbrev blkHb (c : Dev nD) (t : Fin cfg1.N) : Vec Ideal S10000x128 .bf16 := iblk1 V c 1 t
/-- The feature tile it loads. -/
abbrev blkH (c : Dev nD) (t : Fin cfg1.N) : Vec Ideal S400x128 .f32 := iblk1 V c 2 t
/-- The self weights it loads (all of them). -/
abbrev blkWs (c : Dev nD) (t : Fin cfg1.N) : Vec Ideal S128x128 .f32 := iblk1 V c 3 t
/-- The neighbour weights it loads (all of them). -/
abbrev blkWn (c : Dev nD) (t : Fin cfg1.N) : Vec Ideal S128x128 .f32 := iblk1 V c 4 t
/-- The bias row it loads. -/
abbrev blkB (c : Dev nD) (t : Fin cfg1.N) : Vec Ideal S1x128 .f32 := iblk1 V c 5 t
/-- The reciprocal-degree tile it loads. -/
abbrev blkInvd (c : Dev nD) (t : Fin cfg1.N) : Vec Ideal S400x1 .f32 := iblk1 V c 6 t

/-- The windows' index maps over the grid: the row-tiled windows (count matrix, features, reciprocal degree,
    output) are at row block `t` at point `t`, column block 0; the whole windows are at block (0, 0). -/
theorem index_maps : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- Row `r` of the count-matrix tile at point `t` is row `400 t + r` of the count matrix. -/
theorem blkA_apply (c : Dev nD) (t : Fin cfg1.N) (r : Fin 400) (j : Fin 10000) (p : Fin 10000) (hp : p.val = t.val * 400 + r.val) :
    blkA V c t (ix2 r j) = arrA V c (ix2 p j) := by
  obtain ⟨e0, e1, -⟩ := index_maps t
  unfold blkA iblk1
  rw [View.read_apply]
  show V c main_v13 _ = V c main_v13 _
  congr 1
  funext a
  apply Fin.ext
  match a with
  | ⟨0, _⟩ => show win1_0.index t (0 : Fin 2) * 400 + 1 * r.val = p.val; omega
  | ⟨1, _⟩ => show win1_0.index t (1 : Fin 2) * 10000 + 1 * j.val = j.val; omega

/-- The features the first product reads are loaded whole. -/
theorem blkHb_apply (c : Dev nD) (t : Fin cfg1.N) (j : Fin 10000) (d : Fin 128) :
    blkHb V c t (ix2 j d) = arrHb V c (ix2 j d) := by
  obtain ⟨-, -, e0, e1, -⟩ := index_maps t
  unfold blkHb iblk1
  rw [View.read_apply]
  show V c main_v26 _ = V c main_v26 _
  congr 1
  funext a
  apply Fin.ext
  match a with
  | ⟨0, _⟩ => show win1_1.index t (0 : Fin 2) * 10000 + 1 * j.val = j.val; omega
  | ⟨1, _⟩ => show win1_1.index t (1 : Fin 2) * 128 + 1 * d.val = d.val; omega

/-- Row `r` of the feature tile at point `t` is row `400 t + r` of the features. -/
theorem blkH_apply (c : Dev nD) (t : Fin cfg1.N) (r : Fin 400) (d : Fin 128) (p : Fin 10000) (hp : p.val = t.val * 400 + r.val) :
    blkH V c t (ix2 r d) = arrH V c (ix2 p d) := by
  obtain ⟨-, -, -, -, e0, e1, -⟩ := index_maps t
  unfold blkH iblk1
  rw [View.read_apply]
  show V c main_v25 _ = V c main_v25 _
  congr 1
  funext a
  apply Fin.ext
  match a with
  | ⟨0, _⟩ => show win1_2.index t (0 : Fin 2) * 400 + 1 * r.val = p.val; omega
  | ⟨1, _⟩ => show win1_2.index t (1 : Fin 2) * 128 + 1 * d.val = d.val; omega

/-- The self weights are loaded whole. -/
theorem blkWs_apply (c : Dev nD) (t : Fin cfg1.N) (d q : Fin 128) :
    blkWs V c t (ix2 d q) = arrWs V c (ix2 d q) := by
  obtain ⟨-, -, -, -, -, -, e0, e1, -⟩ := index_maps t
  unfold blkWs iblk1
  rw [View.read_apply]
  show V c main_arg4 _ = V c main_arg4 _
  congr 1
  funext a
  apply Fin.ext
  match a with
  | ⟨0, _⟩ => show win1_3.index t (0 : Fin 2) * 128 + 1 * d.val = d.val; omega
  | ⟨1, _⟩ => show win1_3.index t (1 : Fin 2) * 128 + 1 * q.val = q.val; omega

/-- The neighbour weights are loaded whole. -/
theorem blkWn_apply (c : Dev nD) (t : Fin cfg1.N) (d q : Fin 128) :
    blkWn V c t (ix2 d q) = arrWn V c (ix2 d q) := by
  obtain ⟨-, -, -, -, -, -, -, -, e0, e1, -⟩ := index_maps t
  unfold blkWn iblk1
  rw [View.read_apply]
  show V c main_arg5 _ = V c main_arg5 _
  congr 1
  funext a
  apply Fin.ext
  match a with
  | ⟨0, _⟩ => show win1_4.index t (0 : Fin 2) * 128 + 1 * d.val = d.val; omega
  | ⟨1, _⟩ => show win1_4.index t (1 : Fin 2) * 128 + 1 * q.val = q.val; omega

/-- The bias row is loaded whole. -/
theorem blkB_apply (c : Dev nD) (t : Fin cfg1.N) (q : Fin 128) :
    blkB V c t (ix2 0 q) = arrB V c (ix2 0 q) := by
  obtain ⟨-, -, -, -, -, -, -, -, -, -, e0, e1, -⟩ := index_maps t
  unfold blkB iblk1
  rw [View.read_apply]
  show V c main_v27 _ = V c main_v27 _
  congr 1
  funext a
  apply Fin.ext
  match a with
  | ⟨0, _⟩ => show win1_5.index t (0 : Fin 2) * 1 + 1 * 0 = 0; omega
  | ⟨1, _⟩ => show win1_5.index t (1 : Fin 2) * 128 + 1 * q.val = q.val; omega

/-- Row `r` of the reciprocal-degree tile at point `t` is row `400 t + r` of the column. -/
theorem blkInvd_apply (c : Dev nD) (t : Fin cfg1.N) (r : Fin 400) (p : Fin 10000) (hp : p.val = t.val * 400 + r.val) :
    blkInvd V c t (ix2 r 0) = arrInvd V c (ix2 p 0) := by
  obtain ⟨-, -, -, -, -, -, -, -, -, -, -, -, e0, e1, -⟩ := index_maps t
  unfold blkInvd iblk1
  rw [View.read_apply]
  show V c main_v22 _ = V c main_v22 _
  congr 1
  funext a
  apply Fin.ext
  match a with
  | ⟨0, _⟩ => show win1_6.index t (0 : Fin 2) * 400 + 1 * r.val = p.val; omega
  | ⟨1, _⟩ => show win1_6.index t (1 : Fin 2) * 1 + 1 * 0 = 0; omega

/-! ## What a point writes back -/

/-- Entry (r, q) of what the body stores at point `t` is entry (400 t + r, q) of the dense layer of the arrays. -/
theorem block_entry (c : Dev nD) (t : Fin cfg1.N) (r : Fin 400) (q : Fin 128) (p : Fin 10000) (hp : p.val = t.val * 400 + r.val) :
    k1_pay1 (F := Ideal) (blkA V c t) (blkHb V c t) (blkInvd V c t) (blkH V c t) (blkWs V c t) (blkWn V c t) (blkB V c t) (ix2 r q)
      = denseEntry true (arrA V c) (arrInvd V c) (arrHb V c) (arrH V c) (arrWs V c) (arrWn V c) (arrB V c) p q := by
  refine (pay_apply (blkA V c t) (blkHb V c t) (blkInvd V c t) (blkH V c t) (blkWs V c t) (blkWn V c t) (blkB V c t) r q).trans ?_
  unfold denseEntry
  refine congrArg (act true) (congrArg₂ (· + ·) (congrArg₂ (· + ·) ?_ ?_) ?_)
  · exact Finset.sum_congr rfl fun d _ => congrArg₂ (· * ·) (blkH_apply V c t r d p hp) (blkWs_apply V c t d q)
  · exact Finset.sum_congr rfl fun d _ => congrArg₂ (· * ·)
      (congrArg₂ (· * ·) (Finset.sum_congr rfl fun j _ => congrArg₂ (· * ·) (blkA_apply V c t r j p hp) (blkHb_apply V c t j d))
        (blkInvd_apply V c t r p hp))
      (blkWn_apply V c t d q)
  · exact blkB_apply V c t q

/-- Entry (r, q) of the output's block at point `t` sits at (400 t + r, q) of the output array. -/
theorem emb_out (t : Fin cfg1.N) (r : Fin 400) (q : Fin 128) (p : Fin 10000) (hp : p.val = t.val * 400 + r.val) :
    (((cfg1.win 7).blk t).view.emb (ix2 r q) : S10000x128.Idx) = ix2 p q := by
  obtain ⟨-, -, -, -, -, -, -, -, -, -, -, -, -, -, e0, e1⟩ := index_maps t
  funext a
  apply Fin.ext
  match a with
  | ⟨0, _⟩ => show win1_7.index t (0 : Fin 2) * 400 + 1 * r.val = p.val; omega
  | ⟨1, _⟩ => show win1_7.index t (1 : Fin 2) * 128 + 1 * q.val = q.val; omega

/-- What point `t` writes back is its block of the dense layer of the arrays as the region finds them. -/
theorem written_back (c : Dev nD) (t : Fin cfg1.N) :
    (dat1 (F := Ideal) V c).flushed 7 t = ((cfg1.win 7).blk t).view.read (Elt Ideal)
      (denseLayer true (V c main_v13) (V c main_v22) (V c main_v26) (V c main_v25) (V c main_arg4) (V c main_arg5) (V c main_v27)) := by
  show (cfg1.win 7).cut (grid1.coords t) ((dat1 V c).after 7 t) = _
  rw [after1_7]
  unfold out1_7
  rw [View.canon_unit_zero zero_offsets]
  simp only [View.ld_unit_zero (S := S400x10000) zero_offsets, View.ld_unit_zero (S := S10000x128) zero_offsets, View.ld_unit_zero (S := S400x1) zero_offsets,
    View.ld_unit_zero (S := S400x128) zero_offsets, View.ld_unit_zero (S := S128x128) zero_offsets, View.ld_unit_zero (S := S1x128) zero_offsets]
  funext j
  obtain ⟨r, q, rfl⟩ : ∃ (r : Fin 400) (q : Fin 128), j = ix2 r q := ⟨j 0, j 1, eq_ix2 j⟩
  have hN : cfg1.N = 25 := N_1
  have ht : t.val < 25 := hN ▸ t.isLt
  have hlt : t.val * 400 + r.val < 10000 := by have := r.isLt; omega
  show k1_pay1 (F := Ideal) (blkA V c t) (blkHb V c t) (blkInvd V c t) (blkH V c t) (blkWs V c t) (blkWn V c t) (blkB V c t) (ix2 r q)
    = denseLayer true (arrA V c) (arrInvd V c) (arrHb V c) (arrH V c) (arrWs V c) (arrWn V c) (arrB V c) (((cfg1.win 7).blk t).view.emb (ix2 r q))
  rw [emb_out t r q ⟨t.val * 400 + r.val, hlt⟩ rfl, denseLayer_apply]
  exact block_entry V c t r q ⟨t.val * 400 + r.val, hlt⟩ rfl

/-! ## The blocks cover the array -/

/-- An index of the output array is in point `t`'s block iff each coordinate is in the block's range on its axis. -/
theorem mem_block (t : Fin cfg1.N) (i : S10000x128.Idx) :
    i ∈ ((cfg1.win 7).blk t).view.set ↔ ∀ a : Fin 2, win1_7.index t a * S400x128.size a ≤ (i a).val ∧ (i a).val < win1_7.index t a * S400x128.size a + S400x128.size a := by
  show i ∈ ((View.whole main_v28).slice (win1_7.rect t)).set ↔ _
  rw [View.set_slice_whole, Rect.mem_set_unit]
  exact Iff.rfl

/-- Row `p` of the output array is written by point `p / 400`. -/
theorem rows_covered (i : S10000x128.Idx) : ∃ t : Fin cfg1.N, (cfg1.win 7).flush t = true ∧ i ∈ ((cfg1.win 7).blk t).view.set := by
  have hN : cfg1.N = 25 := N_1
  have hi0 : (i 0).val < 10000 := (i 0).isLt
  have hi1 : (i 1).val < 128 := (i 1).isLt
  obtain ⟨t, ht⟩ : ∃ t : Fin cfg1.N, t.val = (i 0).val / 400 := ⟨⟨(i 0).val / 400, by omega⟩, rfl⟩
  obtain ⟨-, -, -, -, -, -, -, -, -, -, -, -, -, -, e0, e1⟩ := index_maps t
  refine ⟨t, flush1_7 t, ?_⟩
  rw [mem_block]
  intro a
  match a with
  | ⟨0, _⟩ => show win1_7.index t (0 : Fin 2) * 400 ≤ (i 0).val ∧ (i 0).val < win1_7.index t (0 : Fin 2) * 400 + 400; omega
  | ⟨1, _⟩ => show win1_7.index t (1 : Fin 2) * 128 ≤ (i 1).val ∧ (i 1).val < win1_7.index t (1 : Fin 2) * 128 + 128; omega

/-- The output array of region 1 after its last grid point. -/
theorem final (c : Dev nD) :
    (dat1 (F := Ideal) V c).arrAt 7 cfg1.N
      = denseLayer true (V c main_v13) (V c main_v22) (V c main_v26) (V c main_v25) (V c main_arg4) (V c main_arg5) (V c main_v27) :=
  (dat1 (F := Ideal) V c).arrAt_eq_of_cover 7
    (denseLayer true (V c main_v13) (V c main_v22) (V c main_v26) (V c main_v25) (V c main_arg4) (V c main_arg5) (V c main_v27))
    (fun t _ => written_back V c t) rows_covered

end Cert.Sage.Region1

end
-- ==== Proof.Region2.lean ====
/-
  Region 2 of the program, as one function of the arrays it finds: after the last grid point its output array is the
  dense form of a layer (Spec.lean `denseLayer`) of its seven operand arrays — the count matrix, the features as the
  first product reads them, the features, the two weight matrices, the bias row and the reciprocal-degree column.
  Each of the 25 grid points writes 400 rows; the rows of a point's block depend on the same rows of the row-tiled
  operands and on the whole of the others; the 25 blocks cover the array.
-/
import proofs.«421933_j65781719106245_1_alg».proof.Proof.Gen.KernelIdeal.Frame
import proofs.«421933_j65781719106245_1_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Sage.Region2

open Idealize.ShloMosaic Idealize.ShloMosaic.TcCoe Idealize.ShloMosaic.ValueIdx Idealize.SL.Sem
open Cert.KernelIdeal Cert.KernelIdeal.Gen Cert.Sage

/-! ## The two products' operand indices -/

/-- The first product (count-matrix tile times features): the left operand's row is the output's row. -/
theorem lhs_cnt_0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
/-- Its column is the contraction index. -/
theorem lhs_cnt_1 (i : S400x128.Idx) (q : dot_S400x10000_S10000x128_S400x128_1_0_0_1_n_n.contr.Idx) :
    (dot_S400x10000_S10000x128_S400x128_1_0_0_1_n_n.lhsIdx i q 1).val = (q ⟨0, by decide⟩).val :=
  dot_S400x10000_S10000x128_S400x128_1_0_0_1_n_n.lhsIdx_val_of_single rfl i q
/-- The right operand's row is the contraction index. -/
theorem rhs_cnt_0 (i : S400x128.Idx) (q : dot_S400x10000_S10000x128_S400x128_1_0_0_1_n_n.contr.Idx) :
    (dot_S400x10000_S10000x128_S400x128_1_0_0_1_n_n.rhsIdx i q 0).val = (q ⟨0, by decide⟩).val :=
  dot_S400x10000_S10000x128_S400x128_1_0_0_1_n_n.rhsIdx_val_of_single rfl i q
/-- Its column is the output's column. -/
theorem rhs_cnt_1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The products with a weight matrix: the left operand's row is the output's row. -/
theorem lhs_wt_0 (i : S400x64.Idx) (q : dot_S400x128_S128x64_S400x64_1_0_0_1_n_n.contr.Idx) :
    (dot_S400x128_S128x64_S400x64_1_0_0_1_n_n.lhsIdx i q 0).val = (i 0).val := by
  unfold DotDims.lhsIdx
  rw [dif_neg (show ¬(0 : Fin S400x128.rank) ∈ dot_S400x128_S128x64_S400x64_1_0_0_1_n_n.lhsBatch by decide), dif_pos (show (0 : Fin S400x128.rank) ∈ dot_S400x128_S128x64_S400x64_1_0_0_1_n_n.lhsNonContracting by decide)]
  rfl
/-- Its column is the contraction index. -/
theorem lhs_wt_1 (i : S400x64.Idx) (q : dot_S400x128_S128x64_S400x64_1_0_0_1_n_n.contr.Idx) :
    (dot_S400x128_S128x64_S400x64_1_0_0_1_n_n.lhsIdx i q 1).val = (q ⟨0, by decide⟩).val :=
  dot_S400x128_S128x64_S400x64_1_0_0_1_n_n.lhsIdx_val_of_single rfl i q
/-- The right operand's row is the contraction index. -/
theorem rhs_wt_0 (i : S400x64.Idx) (q : dot_S400x128_S128x64_S400x64_1_0_0_1_n_n.contr.Idx) :
    (dot_S400x128_S128x64_S400x64_1_0_0_1_n_n.rhsIdx i q 0).val = (q ⟨0, by decide⟩).val :=
  dot_S400x128_S128x64_S400x64_1_0_0_1_n_n.rhsIdx_val_of_single rfl i q
/-- Its column is the output's column. -/
theorem rhs_wt_1 (i : S400x64.Idx) (q : dot_S400x128_S128x64_S400x64_1_0_0_1_n_n.contr.Idx) :
    (dot_S400x128_S128x64_S400x64_1_0_0_1_n_n.rhsIdx i q 1).val = (i 1).val := by
  unfold DotDims.rhsIdx
  rw [dif_neg (show ¬(1 : Fin S128x64.rank) ∈ dot_S400x128_S128x64_S400x64_1_0_0_1_n_n.rhsBatch by decide), dif_pos (show (1 : Fin S128x64.rank) ∈ dot_S400x128_S128x64_S400x64_1_0_0_1_n_n.rhsNonContracting by decide)]
  rfl

/-! ## The two products at an entry -/

/-- Entry (r, d) of the count-matrix tile times the features: the sum over the 10000 nodes. -/
theorem matmul_cnt_apply (a : FVec Ideal S400x10000 .bf16) (hb : FVec Ideal S10000x128 .bf16) (r : Fin 400) (d : Fin 128) :
    matmul dot_S400x10000_S10000x128_S400x128_1_0_0_1_n_n none a hb (constant (F := Ideal) S400x128 .f32 0x00000000#32) (ix2 r d)
      = ∑ j : Fin 10000, a (ix2 r j) * hb (ix2 j d) := by
  simp only [matmul]
  rw [Ideal.matmul_constant_zero_apply, ← Equiv.sum_comp (ValueIdx.contrEquiv1 dot_S400x10000_S10000x128_S400x128_1_0_0_1_n_n 10000 rfl rfl).symm]
  refine Finset.sum_congr rfl fun k _ => ?_
  have hk := ValueIdx.contrEquiv1_symm_val dot_S400x10000_S10000x128_S400x128_1_0_0_1_n_n 10000 rfl rfl k
  have el : dot_S400x10000_S10000x128_S400x128_1_0_0_1_n_n.lhsIdx (ix2 r d) ((ValueIdx.contrEquiv1 dot_S400x10000_S10000x128_S400x128_1_0_0_1_n_n 10000 rfl rfl).symm k) = ix2 r k := funext fun ax => Fin.ext (by
    match ax with
    | ⟨0, _⟩ => exact lhs_cnt_0 _ _
    | ⟨1, _⟩ => exact (lhs_cnt_1 _ _).trans hk)
  have er : dot_S400x10000_S10000x128_S400x128_1_0_0_1_n_n.rhsIdx (ix2 r d) ((ValueIdx.contrEquiv1 dot_S400x10000_S10000x128_S400x128_1_0_0_1_n_n 10000 rfl rfl).symm k) = ix2 k d := funext fun ax => Fin.ext (by
    match ax with
    | ⟨0, _⟩ => exact (rhs_cnt_0 _ _).trans hk
    | ⟨1, _⟩ => exact rhs_cnt_1 _ _)
  rw [el, er]

/-- Entry (r, q) of a 400 x 128 tile times a 128 x 64 weight matrix: the sum over the 128 features. -/
theorem matmul_wt_apply (y : FVec Ideal S400x128 .f32) (w : FVec Ideal S128x64 .f32) (r : Fin 400) (q : Fin 64) :
    matmul dot_S400x128_S128x64_S400x64_1_0_0_1_n_n none y w (constant (F := Ideal) S400x64 .f32 0x00000000#32) (ix2 r q)
      = ∑ d : Fin 128, y (ix2 r d) * w (ix2 d q) := by
  simp only [matmul]
  rw [Ideal.matmul_constant_zero_apply, ← Equiv.sum_comp (ValueIdx.contrEquiv1 dot_S400x128_S128x64_S400x64_1_0_0_1_n_n 128 rfl rfl).symm]
  refine Finset.sum_congr rfl fun k _ => ?_
  have hk := ValueIdx.contrEquiv1_symm_val dot_S400x128_S128x64_S400x64_1_0_0_1_n_n 128 rfl rfl k
  have el : dot_S400x128_S128x64_S400x64_1_0_0_1_n_n.lhsIdx (ix2 r q) ((ValueIdx.contrEquiv1 dot_S400x128_S128x64_S400x64_1_0_0_1_n_n 128 rfl rfl).symm k) = ix2 r k := funext fun ax => Fin.ext (by
    match ax with
    | ⟨0, _⟩ => exact lhs_wt_0 _ _
    | ⟨1, _⟩ => exact (lhs_wt_1 _ _).trans hk)
  have er : dot_S400x128_S128x64_S400x64_1_0_0_1_n_n.rhsIdx (ix2 r q) ((ValueIdx.contrEquiv1 dot_S400x128_S128x64_S400x64_1_0_0_1_n_n 128 rfl rfl).symm k) = ix2 k q := funext fun ax => Fin.ext (by
    match ax with
    | ⟨0, _⟩ => exact (rhs_wt_0 _ _).trans hk
    | ⟨1, _⟩ => exact rhs_wt_1 _ _)
  rw [el, er]

/-! ## The column broadcast -/

/-- An `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's arithmetic at an entry -/

/-- Entry (r, q) of what the body stores: the dense layer's entry of its seven blocks, with no maximum. -/
theorem body_entry (a : Vec Ideal S400x10000 .bf16) (hb : Vec Ideal S10000x128 .bf16) (invd : Vec Ideal S400x1 .f32)
    (h : Vec Ideal S400x128 .f32) (ws wn : Vec Ideal S128x64 .f32) (b : Vec Ideal S1x64 .f32) (r : Fin 400) (q : Fin 64) :
    k2_pay1 (F := Ideal) a hb invd h ws wn b (ix2 r q)
      = act false ((∑ d : Fin 128, h (ix2 r d) * ws (ix2 d q))
          + (∑ d : Fin 128, ((∑ j : Fin 10000, a (ix2 r j) * hb (ix2 j d)) * invd (ix2 r 0)) * wn (ix2 d q))
          + b (ix2 0 q)) := by
  unfold k2_pay1
  simp only [shapeCast_self]
  rw [addf_apply, addf_apply, matmul_wt_apply, matmul_wt_apply, broadcastTo_1b_ab_apply]
  simp only [mulf_apply, matmul_cnt_apply, broadcastTo_a1_ab_apply]
  rfl

/-- The body's entry when each block entry it reads is an entry of an array: the dense layer's entry of the arrays. -/
theorem body_entry_of_arrays (a : Vec Ideal S400x10000 .bf16) (hb : Vec Ideal S10000x128 .bf16) (invd : Vec Ideal S400x1 .f32)
    (h : Vec Ideal S400x128 .f32) (ws wn : Vec Ideal S128x64 .f32) (b : Vec Ideal S1x64 .f32)
    (A : Mat 10000 10000) (Invd : Mat 10000 1) (Hb H : Mat 10000 128) (Ws Wn : Mat 128 64) (B : Mat 1 64)
    (r : Fin 400) (q : Fin 64) (p : Fin 10000)
    (h0 : ∀ j : Fin 10000, a (ix2 r j) = A (ix2 p j))
    (h1 : ∀ (j : Fin 10000) (d : Fin 128), hb (ix2 j d) = Hb (ix2 j d))
    (h2 : ∀ d : Fin 128, h (ix2 r d) = H (ix2 p d))
    (h3 : ∀ d : Fin 128, ws (ix2 d q) = Ws (ix2 d q))
    (h4 : ∀ d : Fin 128, wn (ix2 d q) = Wn (ix2 d q))
    (h5 : b (ix2 0 q) = B (ix2 0 q))
    (h6 : invd (ix2 r 0) = Invd (ix2 p 0)) :
    k2_pay1 (F := Ideal) a hb invd h ws wn b (ix2 r q) = denseLayer false A Invd Hb H Ws Wn B (ix2 p q) := by
  rw [body_entry, denseLayer_apply]
  unfold denseEntry
  simp only [h0, h1, h2, h3, h4, h5, h6]

/-! ## From the blocks to the arrays -/

variable (V : (c : Dev nD) → (b : Ref sig .tc) → Buf (Elt Ideal) ((c : Thread nD τ).loc b))

/-- The offsets of a whole-block rectangle are all zero. -/
theorem zero_offsets : (![0, 0] : Fin 2 → Nat) = fun _ => 0 := funext fun a => match a with | ⟨0, _⟩ => rfl | ⟨1, _⟩ => rfl

/-- The index maps over the 25 grid points: the row-tiled windows move with the output's row tile, the whole
    windows stay, and the output's row tile is the point's number. -/
theorem tile_indices : ∀ t : Fin cfg2.N,
    win2_0.index t (0 : Fin 2) = win2_7.index t (0 : Fin 2) ∧ win2_0.index t (1 : Fin 2) = 0
    ∧ win2_1.index t (0 : Fin 2) = 0 ∧ win2_1.index t (1 : Fin 2) = 0
    ∧ win2_2.index t (0 : Fin 2) = win2_7.index t (0 : Fin 2) ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = win2_7.index t (0 : Fin 2) ∧ win2_6.index t (1 : Fin 2) = 0
    ∧ win2_7.index t (0 : Fin 2) = t.val ∧ win2_7.index t (1 : Fin 2) = 0 :=
  (by decide +kernel : ∀ t : Fin grid2.N, _)

/-- Row r of the count-matrix tile at point t is row p of the count matrix. -/
theorem cnt_tile_apply (c : Dev nD) (t : Fin cfg2.N) (r : Fin 400) (j : Fin 10000) (p : Fin 10000)
    (hp : p.val = win2_7.index t (0 : Fin 2) * 400 + r.val) :
    (iblk2 V c 0 t : Vec Ideal S400x10000 .bf16) (ix2 r j) = (V c main_v13 : Mat 10000 10000) (ix2 p j) := by
  obtain ⟨e0, e1, -⟩ := tile_indices t
  unfold iblk2
  rw [View.read_apply]
  show V c main_v13 _ = V c main_v13 _
  congr 1
  funext ax
  apply Fin.ext
  match ax with
  | ⟨0, _⟩ => show win2_0.index t (0 : Fin 2) * 400 + 1 * r.val = p.val; omega
  | ⟨1, _⟩ => show win2_0.index t (1 : Fin 2) * 10000 + 1 * j.val = j.val; omega

/-- The features as the first product reads them: the block is the whole array. -/
theorem feat_first_apply (c : Dev nD) (t : Fin cfg2.N) (j : Fin 10000) (d : Fin 128) :
    (iblk2 V c 1 t : Vec Ideal S10000x128 .bf16) (ix2 j d) = (V c main_v29 : Mat 10000 128) (ix2 j d) := by
  obtain ⟨-, -, e0, e1, -⟩ := tile_indices t
  unfold iblk2
  rw [View.read_apply]
  show V c main_v29 _ = V c main_v29 _
  congr 1
  funext ax
  apply Fin.ext
  match ax with
  | ⟨0, _⟩ => show win2_1.index t (0 : Fin 2) * 10000 + 1 * j.val = j.val; omega
  | ⟨1, _⟩ => show win2_1.index t (1 : Fin 2) * 128 + 1 * d.val = d.val; omega

/-- Row r of the feature tile at point t is row p of the features. -/
theorem feat_tile_apply (c : Dev nD) (t : Fin cfg2.N) (r : Fin 400) (d : Fin 128) (p : Fin 10000)
    (hp : p.val = win2_7.index t (0 : Fin 2) * 400 + r.val) :
    (iblk2 V c 2 t : Vec Ideal S400x128 .f32) (ix2 r d) = (V c main_v28 : Mat 10000 128) (ix2 p d) := by
  obtain ⟨-, -, -, -, e0, e1, -⟩ := tile_indices t
  unfold iblk2
  rw [View.read_apply]
  show V c main_v28 _ = V c main_v28 _
  congr 1
  funext ax
  apply Fin.ext
  match ax with
  | ⟨0, _⟩ => show win2_2.index t (0 : Fin 2) * 400 + 1 * r.val = p.val; omega
  | ⟨1, _⟩ => show win2_2.index t (1 : Fin 2) * 128 + 1 * d.val = d.val; omega

/-- The first weight matrix: the block is the whole array. -/
theorem w_self_apply (c : Dev nD) (t : Fin cfg2.N) (d : Fin 128) (q : Fin 64) :
    (iblk2 V c 3 t : Vec Ideal S128x64 .f32) (ix2 d q) = (V c main_arg7 : Mat 128 64) (ix2 d q) := by
  obtain ⟨-, -, -, -, -, -, e0, e1, -⟩ := tile_indices t
  unfold iblk2
  rw [View.read_apply]
  show V c main_arg7 _ = V c main_arg7 _
  congr 1
  funext ax
  apply Fin.ext
  match ax with
  | ⟨0, _⟩ => show win2_3.index t (0 : Fin 2) * 128 + 1 * d.val = d.val; omega
  | ⟨1, _⟩ => show win2_3.index t (1 : Fin 2) * 64 + 1 * q.val = q.val; omega

/-- The second weight matrix: the block is the whole array. -/
theorem w_neigh_apply (c : Dev nD) (t : Fin cfg2.N) (d : Fin 128) (q : Fin 64) :
    (iblk2 V c 4 t : Vec Ideal S128x64 .f32) (ix2 d q) = (V c main_arg8 : Mat 128 64) (ix2 d q) := by
  obtain ⟨-, -, -, -, -, -, -, -, e0, e1, -⟩ := tile_indices t
  unfold iblk2
  rw [View.read_apply]
  show V c main_arg8 _ = V c main_arg8 _
  congr 1
  funext ax
  apply Fin.ext
  match ax with
  | ⟨0, _⟩ => show win2_4.index t (0 : Fin 2) * 128 + 1 * d.val = d.val; omega
  | ⟨1, _⟩ => show win2_4.index t (1 : Fin 2) * 64 + 1 * q.val = q.val; omega

/-- The bias row: the block is the whole array. -/
theorem bias_row_apply (c : Dev nD) (t : Fin cfg2.N) (z : Fin 1) (q : Fin 64) :
    (iblk2 V c 5 t : Vec Ideal S1x64 .f32) (ix2 z q) = (V c main_v30 : Mat 1 64) (ix2 z q) := by
  obtain ⟨-, -, -, -, -, -, -, -, -, -, e0, e1, -⟩ := tile_indices t
  unfold iblk2
  rw [View.read_apply]
  show V c main_v30 _ = V c main_v30 _
  congr 1
  funext ax
  apply Fin.ext
  match ax with
  | ⟨0, _⟩ => show win2_5.index t (0 : Fin 2) * 1 + 1 * z.val = z.val; omega
  | ⟨1, _⟩ => show win2_5.index t (1 : Fin 2) * 64 + 1 * q.val = q.val; omega

/-- Row r of the reciprocal-degree tile at point t is row p of the reciprocal-degree column. -/
theorem inv_deg_tile_apply (c : Dev nD) (t : Fin cfg2.N) (r : Fin 400) (z : Fin 1) (p : Fin 10000)
    (hp : p.val = win2_7.index t (0 : Fin 2) * 400 + r.val) :
    (iblk2 V c 6 t : Vec Ideal S400x1 .f32) (ix2 r z) = (V c main_v22 : Mat 10000 1) (ix2 p z) := by
  obtain ⟨-, -, -, -, -, -, -, -, -, -, -, -, e0, e1, -⟩ := tile_indices t
  unfold iblk2
  rw [View.read_apply]
  show V c main_v22 _ = V c main_v22 _
  congr 1
  funext ax
  apply Fin.ext
  match ax with
  | ⟨0, _⟩ => show win2_6.index t (0 : Fin 2) * 400 + 1 * r.val = p.val; omega
  | ⟨1, _⟩ => show win2_6.index t (1 : Fin 2) * 1 + 1 * z.val = z.val; omega

/-- Entry (r, q) of the output's block at point t sits at (p, q) in the output array. -/
theorem out_tile_emb (t : Fin cfg2.N) (r : Fin 400) (q : Fin 64) (p : Fin 10000)
    (hp : p.val = win2_7.index t (0 : Fin 2) * 400 + r.val) :
    (((cfg2.win 7).blk t).view.emb (ix2 r q) : S10000x64.Idx) = ix2 p q := by
  obtain ⟨-, -, -, -, -, -, -, -, -, -, -, -, -, -, e0, e1⟩ := tile_indices t
  funext ax
  apply Fin.ext
  match ax with
  | ⟨0, _⟩ => show win2_7.index t (0 : Fin 2) * 400 + 1 * r.val = p.val; omega
  | ⟨1, _⟩ => show win2_7.index t (1 : Fin 2) * 64 + 1 * q.val = q.val; omega

/-- What point t writes back is its block of the dense layer of the arrays as the region finds them. -/
theorem written_back_eq (c : Dev nD) (t : Fin cfg2.N) :
    (dat2 (F := Ideal) V c).flushed 7 t = ((cfg2.win 7).blk t).view.read (Elt Ideal)
      (denseLayer false (V c main_v13) (V c main_v22) (V c main_v29) (V c main_v28) (V c main_arg7) (V c main_arg8) (V c main_v30)) := by
  show (cfg2.win 7).cut (grid2.coords t) ((dat2 V c).after 7 t) = _
  rw [after2_7]
  unfold out2_7
  rw [View.canon_unit_zero zero_offsets]
  simp only [View.ld_unit_zero (S := S400x10000) zero_offsets, View.ld_unit_zero (S := S10000x128) zero_offsets, View.ld_unit_zero (S := S400x1) zero_offsets,
    View.ld_unit_zero (S := S400x128) zero_offsets, View.ld_unit_zero (S := S128x64) zero_offsets, View.ld_unit_zero (S := S1x64) zero_offsets]
  funext j
  obtain ⟨r, q, rfl⟩ : ∃ (r : Fin 400) (q : Fin 64), j = ix2 r q := ⟨j 0, j 1, eq_ix2 (n0 := 400) (n1 := 64) j⟩
  have hN : cfg2.N = 25 := N_2
  have ht : t.val < 25 := hN ▸ t.isLt
  have e7 : win2_7.index t (0 : Fin 2) = t.val := (tile_indices t).2.2.2.2.2.2.2.2.2.2.2.2.2.2.1
  have hp : win2_7.index t (0 : Fin 2) * 400 + r.val < 10000 := by have := r.isLt; omega
  rw [View.read_apply, out_tile_emb t r q ⟨_, hp⟩ rfl]
  show k2_pay1 (F := Ideal) _ _ _ _ _ _ _ (ix2 r q) = _
  exact body_entry_of_arrays _ _ _ _ _ _ _ _ _ _ _ _ _ _ r q ⟨_, hp⟩
    (fun j => cnt_tile_apply V c t r j _ rfl) (fun j d => feat_first_apply V c t j d) (fun d => feat_tile_apply V c t r d _ rfl)
    (fun d => w_self_apply V c t d q) (fun d => w_neigh_apply V c t d q) (bias_row_apply V c t 0 q) (inv_deg_tile_apply V c t r 0 _ rfl)

/-- An index of the output array is in point t's block iff each coordinate is in the block's range on its axis. -/
theorem mem_row_tile (t : Fin cfg2.N) (i : S10000x64.Idx) :
    i ∈ ((cfg2.win 7).blk t).view.set ↔ ∀ a : Fin 2, win2_7.index t a * S400x64.size a ≤ (i a).val ∧ (i a).val < win2_7.index t a * S400x64.size a + S400x64.size a := by
  show i ∈ ((View.whole main_v31).slice (win2_7.rect t)).set ↔ _
  rw [View.set_slice_whole, Rect.mem_set_unit]
  exact Iff.rfl

/-- Row p of the output array is in the block of point p / 400, and every point writes back. -/
theorem rows_covered (i : S10000x64.Idx) :
    ∃ t : Fin cfg2.N, (cfg2.win 7).flush t = true ∧ i ∈ ((cfg2.win 7).blk t).view.set := by
  have hi0 : (i 0).val < 10000 := (i 0).isLt
  have hi1 : (i 1).val < 64 := (i 1).isLt
  have hN : cfg2.N = 25 := N_2
  have hlt : (i 0).val / 400 < cfg2.N := by rw [hN]; omega
  obtain ⟨-, -, -, -, -, -, -, -, -, -, -, -, -, -, e0, e1⟩ := tile_indices ⟨(i 0).val / 400, hlt⟩
  refine ⟨⟨(i 0).val / 400, hlt⟩, flush2_7 _, ?_⟩
  rw [mem_row_tile]
  intro ax
  match ax with
  | ⟨0, _⟩ =>
    show win2_7.index ⟨(i 0).val / 400, hlt⟩ (0 : Fin 2) * 400 ≤ (i 0).val ∧ (i 0).val < win2_7.index ⟨(i 0).val / 400, hlt⟩ (0 : Fin 2) * 400 + 400
    rw [e0]; show (i 0).val / 400 * 400 ≤ (i 0).val ∧ (i 0).val < (i 0).val / 400 * 400 + 400; omega
  | ⟨1, _⟩ =>
    show win2_7.index ⟨(i 0).val / 400, hlt⟩ (1 : Fin 2) * 64 ≤ (i 1).val ∧ (i 1).val < win2_7.index ⟨(i 0).val / 400, hlt⟩ (1 : Fin 2) * 64 + 64
    rw [e1]; omega

/-- The output array of region 2 after its last grid point. -/
theorem final (c : Dev nD) :
    (dat2 (F := Ideal) V c).arrAt 7 cfg2.N
      = denseLayer false (V c main_v13) (V c main_v22) (V c main_v29) (V c main_v28) (V c main_arg7) (V c main_arg8) (V c main_v30) :=
  (dat2 V c).arrAt_eq_of_cover 7
    (denseLayer false (V c main_v13) (V c main_v22) (V c main_v29) (V c main_v28) (V c main_arg7) (V c main_arg8) (V c main_v30))
    (fun t _ => written_back_eq V c t) rows_covered

end Cert.Sage.Region2

end
-- ==== Proof.KernelFold.lean ====
/-
  The kernel's program from the launch to the return, as values. Its @main is: a host stretch that builds the count
  matrix and the reciprocal-degree column from the edge vectors (and lays the first bias out as a row), region 0, a
  host stretch (the features re-read for the first product, the second bias as a row), region 1, the same again,
  region 2. Walking the buffer contents at the segment boundaries back from the result to the launch memory, the
  result array is three dense layers of the arguments.
-/
import proofs.«421933_j65781719106245_1_alg».proof.Proof.Gen.KernelIdeal.Frame
import proofs.«421933_j65781719106245_1_alg».proof.Proof.Spec
import proofs.«421933_j65781719106245_1_alg».proof.Proof.KernelHost
import proofs.«421933_j65781719106245_1_alg».proof.Proof.Region0
import proofs.«421933_j65781719106245_1_alg».proof.Proof.Region1
import proofs.«421933_j65781719106245_1_alg».proof.Proof.Region2
import Idealize.ShloMosaic.PureOps.Ideal
import Idealize.ShloMosaic.Lib.ValueIdx
import Idealize.ShloMosaic.Lib.Pipeline.Value
import Idealize.ShloMosaic.Lib.StableHlo.Run

set_option maxRecDepth 16384

noncomputable section

namespace Cert.Sage.KFold

open Idealize.ShloMosaic Idealize.ShloMosaic.TcCoe Idealize.ShloMosaic.ValueIdx Idealize.SL.Sem
open Cert.KernelIdeal Cert.KernelIdeal.Gen Cert.Sage Cert.Sage.KHost

/-- A vector of 128 entries laid out as a 1 x 128 row, as the program does it. -/
def row128 (b : FVec Ideal S128 .f32) : FVec Ideal S1x128 .f32 := fun i => shapeCast S1x128 b shapeCasts_S128_S1x128 i
/-- A vector of 64 entries laid out as a 1 x 64 row. -/
def row64 (b : FVec Ideal S64 .f32) : FVec Ideal S1x64 .f32 := fun i => shapeCast S1x64 b shapeCasts_S64_S1x64 i
/-- The features re-read in the narrower format: at the ideal values, the features themselves. -/
def narrow (h : FVec Ideal S10000x128 .f32) : FVec Ideal S10000x128 .bf16 := truncf .bf16 h bitsLt_bf16_f32

theorem row128_apply (b : FVec Ideal S128 .f32) (q : Fin 128) : row128 b (ix2 0 q) = b (ix1 q) :=
  shapeCast_a_1a_apply (a := 128) b shapeCasts_S128_S1x128 0 q
theorem row64_apply (b : FVec Ideal S64 .f32) (q : Fin 64) : row64 b (ix2 0 q) = b (ix1 q) :=
  shapeCast_a_1a_apply (a := 64) b shapeCasts_S64_S1x64 0 q
theorem narrow_eq (h : FVec Ideal S10000x128 .f32) : (narrow h : Mat 10000 128) = h := rfl

variable (m : (ℓ : Loc nD τ sig) → Buf (Elt Ideal) ℓ) (ρ : Dev nD → PrngReg)

/-- The count matrix of the launch memory's edge vectors. -/
def cnt (c : Dev nD) : Mat 10000 10000 := hostA (m ((c : Thread nD τ).loc main_arg10)) (m ((c : Thread nD τ).loc main_arg11))
/-- Their reciprocal-degree column. -/
def rdeg (c : Dev nD) : Mat 10000 1 := hostInvd (m ((c : Thread nD τ).loc main_arg11))
/-- The features after the first dense layer. -/
def feat1 (c : Dev nD) : Mat 10000 128 :=
  denseLayer true (cnt m c) (rdeg m c) (narrow (m ((c : Thread nD τ).loc main_arg0))) (m ((c : Thread nD τ).loc main_arg0))
    (m ((c : Thread nD τ).loc main_arg1)) (m ((c : Thread nD τ).loc main_arg2)) (row128 (m ((c : Thread nD τ).loc main_arg3)))
/-- After the second. -/
def feat2 (c : Dev nD) : Mat 10000 128 :=
  denseLayer true (cnt m c) (rdeg m c) (narrow (feat1 m c)) (feat1 m c)
    (m ((c : Thread nD τ).loc main_arg4)) (m ((c : Thread nD τ).loc main_arg5)) (row128 (m ((c : Thread nD τ).loc main_arg6)))
/-- After the third: the program's result. -/
def feat3 (c : Dev nD) : Mat 10000 64 :=
  denseLayer false (cnt m c) (rdeg m c) (narrow (feat2 m c)) (feat2 m c)
    (m ((c : Thread nD τ).loc main_arg7)) (m ((c : Thread nD τ).loc main_arg8)) (row64 (m ((c : Thread nD τ).loc main_arg9)))

/-- A host stretch leaves a buffer it does not write as it was. -/
local macro "unwritten " h:ident : tactic =>
  `(tactic| exact StableHlo.after_of_forall_not_mem _ _ (List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-- The dense layer depends on its seven operands only. -/
private theorem denseLayer_congr {relu : Bool} {D : Nat} {A A' : Mat 10000 10000} {invd invd' : Mat 10000 1} {hb hb' h h' : Mat 10000 128}
    {Ws Ws' Wn Wn' : Mat 128 D} {b b' : Mat 1 D} (hA : A = A') (hi : invd = invd') (hhb : hb = hb') (hh : h = h')
    (hs : Ws = Ws') (hn : Wn = Wn') (hbb : b = b') :
    denseLayer relu A invd hb h Ws Wn b = denseLayer relu A' invd' hb' h' Ws' Wn' b' := by
  subst hA hi hhb hh hs hn hbb; rfl

/-! ### At region 0's entry: the first host stretch from the launch memory -/

private theorem w1_arg0 (c : Dev nD) : W1 m ρ c (Proc.devRef .tc main_arg0) = m ((c : Thread nD τ).loc main_arg0) := by
  show StableHlo.after hostOps0 (W0 m ρ c) (Proc.devRef .tc main_arg0) = W0 m ρ c (Proc.devRef .tc main_arg0)
  unwritten hostOps0
private theorem w1_arg1 (c : Dev nD) : W1 m ρ c (Proc.devRef .tc main_arg1) = m ((c : Thread nD τ).loc main_arg1) := by
  show StableHlo.after hostOps0 (W0 m ρ c) (Proc.devRef .tc main_arg1) = W0 m ρ c (Proc.devRef .tc main_arg1)
  unwritten hostOps0
private theorem w1_arg2 (c : Dev nD) : W1 m ρ c (Proc.devRef .tc main_arg2) = m ((c : Thread nD τ).loc main_arg2) := by
  show StableHlo.after hostOps0 (W0 m ρ c) (Proc.devRef .tc main_arg2) = W0 m ρ c (Proc.devRef .tc main_arg2)
  unwritten hostOps0
private theorem w1_arg4 (c : Dev nD) : W1 m ρ c (Proc.devRef .tc main_arg4) = m ((c : Thread nD τ).loc main_arg4) := by
  show StableHlo.after hostOps0 (W0 m ρ c) (Proc.devRef .tc main_arg4) = W0 m ρ c (Proc.devRef .tc main_arg4)
  unwritten hostOps0
private theorem w1_arg5 (c : Dev nD) : W1 m ρ c (Proc.devRef .tc main_arg5) = m ((c : Thread nD τ).loc main_arg5) := by
  show StableHlo.after hostOps0 (W0 m ρ c) (Proc.devRef .tc main_arg5) = W0 m ρ c (Proc.devRef .tc main_arg5)
  unwritten hostOps0
private theorem w1_arg6 (c : Dev nD) : W1 m ρ c (Proc.devRef .tc main_arg6) = m ((c : Thread nD τ).loc main_arg6) := by
  show StableHlo.after hostOps0 (W0 m ρ c) (Proc.devRef .tc main_arg6) = W0 m ρ c (Proc.devRef .tc main_arg6)
  unwritten hostOps0
private theorem w1_arg7 (c : Dev nD) : W1 m ρ c (Proc.devRef .tc main_arg7) = m ((c : Thread nD τ).loc main_arg7) := by
  show StableHlo.after hostOps0 (W0 m ρ c) (Proc.devRef .tc main_arg7) = W0 m ρ c (Proc.devRef .tc main_arg7)
  unwritten hostOps0
private theorem w1_arg8 (c : Dev nD) : W1 m ρ c (Proc.devRef .tc main_arg8) = m ((c : Thread nD τ).loc main_arg8) := by
  show StableHlo.after hostOps0 (W0 m ρ c) (Proc.devRef .tc main_arg8) = W0 m ρ c (Proc.devRef .tc main_arg8)
  unwritten hostOps0
private theorem w1_arg9 (c : Dev nD) : W1 m ρ c (Proc.devRef .tc main_arg9) = m ((c : Thread nD τ).loc main_arg9) := by
  show StableHlo.after hostOps0 (W0 m ρ c) (Proc.devRef .tc main_arg9) = W0 m ρ c (Proc.devRef .tc main_arg9)
  unwritten hostOps0

set_option maxHeartbeats 4000000 in
private theorem w1_v13 (c : Dev nD) : W1 m ρ c (Proc.devRef .tc main_v13) = cnt m c := by
  show StableHlo.after hostOps0 (W0 m ρ c) (Proc.devRef .tc main_v13) = _
  after_results_simp
  rfl
set_option maxHeartbeats 4000000 in
private theorem w1_v22 (c : Dev nD) : W1 m ρ c (Proc.devRef .tc main_v22) = rdeg m c := by
  show StableHlo.after hostOps0 (W0 m ρ c) (Proc.devRef .tc main_v22) = _
  after_results_simp
  rfl
private theorem w1_v23 (c : Dev nD) : W1 m ρ c (Proc.devRef .tc main_v23) = narrow (m ((c : Thread nD τ).loc main_arg0)) := by
  show StableHlo.after hostOps0 (W0 m ρ c) (Proc.devRef .tc main_v23) = _
  after_results
  rfl
private theorem w1_v24 (c : Dev nD) : W1 m ρ c (Proc.devRef .tc main_v24) = row128 (m ((c : Thread nD τ).loc main_arg3)) := by
  show StableHlo.after hostOps0 (W0 m ρ c) (Proc.devRef .tc main_v24) = _
  after_results
  rfl

/-! ### At region 0's exit -/

private theorem w2_v25 (c : Dev nD) : W2 m ρ c (Proc.devRef .tc main_v25) = feat1 m c :=
  ((W2_arr m ρ c 7).trans (Region0.final (V1 m ρ) c)).trans
    (denseLayer_congr (w1_v13 m ρ c) (w1_v22 m ρ c) (w1_v23 m ρ c) (w1_arg0 m ρ c) (w1_arg1 m ρ c) (w1_arg2 m ρ c) (w1_v24 m ρ c))
private theorem w2_v13 (c : Dev nD) : W2 m ρ c (Proc.devRef .tc main_v13) = cnt m c :=
  ((W2_arr m ρ c 0).trans (((dat0 (V1 m ρ) c).arrAt_in 0 rfl _).trans (A_eq0 (V1 m ρ) c 0))).trans (w1_v13 m ρ c)
private theorem w2_v22 (c : Dev nD) : W2 m ρ c (Proc.devRef .tc main_v22) = rdeg m c :=
  ((W2_arr m ρ c 6).trans (((dat0 (V1 m ρ) c).arrAt_in 6 rfl _).trans (A_eq0 (V1 m ρ) c 6))).trans (w1_v22 m ρ c)
private theorem w2_arg4 (c : Dev nD) : W2 m ρ c (Proc.devRef .tc main_arg4) = m ((c : Thread nD τ).loc main_arg4) :=
  (W2_of_ne m ρ c main_arg4 (by decide)).trans (w1_arg4 m ρ c)
private theorem w2_arg5 (c : Dev nD) : W2 m ρ c (Proc.devRef .tc main_arg5) = m ((c : Thread nD τ).loc main_arg5) :=
  (W2_of_ne m ρ c main_arg5 (by decide)).trans (w1_arg5 m ρ c)
private theorem w2_arg6 (c : Dev nD) : W2 m ρ c (Proc.devRef .tc main_arg6) = m ((c : Thread nD τ).loc main_arg6) :=
  (W2_of_ne m ρ c main_arg6 (by decide)).trans (w1_arg6 m ρ c)
private theorem w2_arg7 (c : Dev nD) : W2 m ρ c (Proc.devRef .tc main_arg7) = m ((c : Thread nD τ).loc main_arg7) :=
  (W2_of_ne m ρ c main_arg7 (by decide)).trans (w1_arg7 m ρ c)
private theorem w2_arg8 (c : Dev nD) : W2 m ρ c (Proc.devRef .tc main_arg8) = m ((c : Thread nD τ).loc main_arg8) :=
  (W2_of_ne m ρ c main_arg8 (by decide)).trans (w1_arg8 m ρ c)
private theorem w2_arg9 (c : Dev nD) : W2 m ρ c (Proc.devRef .tc main_arg9) = m ((c : Thread nD τ).loc main_arg9) :=
  (W2_of_ne m ρ c main_arg9 (by decide)).trans (w1_arg9 m ρ c)

/-! ### At region 1's entry: the second host stretch -/

private theorem w3_v13 (c : Dev nD) : W3 m ρ c (Proc.devRef .tc main_v13) = cnt m c :=
  (show StableHlo.after hostOps1 (W2 m ρ c) (Proc.devRef .tc main_v13) = W2 m ρ c (Proc.devRef .tc main_v13) by
    unwritten hostOps1).trans (w2_v13 m ρ c)
private theorem w3_v22 (c : Dev nD) : W3 m ρ c (Proc.devRef .tc main_v22) = rdeg m c :=
  (show StableHlo.after hostOps1 (W2 m ρ c) (Proc.devRef .tc main_v22) = W2 m ρ c (Proc.devRef .tc main_v22) by
    unwritten hostOps1).trans (w2_v22 m ρ c)
private theorem w3_v25 (c : Dev nD) : W3 m ρ c (Proc.devRef .tc main_v25) = feat1 m c :=
  (show StableHlo.after hostOps1 (W2 m ρ c) (Proc.devRef .tc main_v25) = W2 m ρ c (Proc.devRef .tc main_v25) by
    unwritten hostOps1).trans (w2_v25 m ρ c)
private theorem w3_arg4 (c : Dev nD) : W3 m ρ c (Proc.devRef .tc main_arg4) = m ((c : Thread nD τ).loc main_arg4) :=
  (show StableHlo.after hostOps1 (W2 m ρ c) (Proc.devRef .tc main_arg4) = W2 m ρ c (Proc.devRef .tc main_arg4) by
    unwritten hostOps1).trans (w2_arg4 m ρ c)
private theorem w3_arg5 (c : Dev nD) : W3 m ρ c (Proc.devRef .tc main_arg5) = m ((c : Thread nD τ).loc main_arg5) :=
  (show StableHlo.after hostOps1 (W2 m ρ c) (Proc.devRef .tc main_arg5) = W2 m ρ c (Proc.devRef .tc main_arg5) by
    unwritten hostOps1).trans (w2_arg5 m ρ c)
private theorem w3_arg7 (c : Dev nD) : W3 m ρ c (Proc.devRef .tc main_arg7) = m ((c : Thread nD τ).loc main_arg7) :=
  (show StableHlo.after hostOps1 (W2 m ρ c) (Proc.devRef .tc main_arg7) = W2 m ρ c (Proc.devRef .tc main_arg7) by
    unwritten hostOps1).trans (w2_arg7 m ρ c)
private theorem w3_arg8 (c : Dev nD) : W3 m ρ c (Proc.devRef .tc main_arg8) = m ((c : Thread nD τ).loc main_arg8) :=
  (show StableHlo.after hostOps1 (W2 m ρ c) (Proc.devRef .tc main_arg8) = W2 m ρ c (Proc.devRef .tc main_arg8) by
    unwritten hostOps1).trans (w2_arg8 m ρ c)
private theorem w3_arg9 (c : Dev nD) : W3 m ρ c (Proc.devRef .tc main_arg9) = m ((c : Thread nD τ).loc main_arg9) :=
  (show StableHlo.after hostOps1 (W2 m ρ c) (Proc.devRef .tc main_arg9) = W2 m ρ c (Proc.devRef .tc main_arg9) by
    unwritten hostOps1).trans (w2_arg9 m ρ c)
private theorem w3_v26 (c : Dev nD) : W3 m ρ c (Proc.devRef .tc main_v26) = narrow (feat1 m c) := by
  show StableHlo.after hostOps1 (W2 m ρ c) (Proc.devRef .tc main_v26) = _
  after_results
  exact congrArg narrow (w2_v25 m ρ c)
private theorem w3_v27 (c : Dev nD) : W3 m ρ c (Proc.devRef .tc main_v27) = row128 (m ((c : Thread nD τ).loc main_arg6)) := by
  show StableHlo.after hostOps1 (W2 m ρ c) (Proc.devRef .tc main_v27) = _
  after_results
  rw [w2_arg6]
  rfl

/-! ### At region 1's exit -/

private theorem w4_v28 (c : Dev nD) : W4 m ρ c (Proc.devRef .tc main_v28) = feat2 m c :=
  ((W4_arr m ρ c 7).trans (Region1.final (V3 m ρ) c)).trans
    (denseLayer_congr (w3_v13 m ρ c) (w3_v22 m ρ c) (w3_v26 m ρ c) (w3_v25 m ρ c) (w3_arg4 m ρ c) (w3_arg5 m ρ c) (w3_v27 m ρ c))
private theorem w4_v13 (c : Dev nD) : W4 m ρ c (Proc.devRef .tc main_v13) = cnt m c :=
  ((W4_arr m ρ c 0).trans (((dat1 (V3 m ρ) c).arrAt_in 0 rfl _).trans (A_eq1 (V3 m ρ) c 0))).trans (w3_v13 m ρ c)
private theorem w4_v22 (c : Dev nD) : W4 m ρ c (Proc.devRef .tc main_v22) = rdeg m c :=
  ((W4_arr m ρ c 6).trans (((dat1 (V3 m ρ) c).arrAt_in 6 rfl _).trans (A_eq1 (V3 m ρ) c 6))).trans (w3_v22 m ρ c)
private theorem w4_arg7 (c : Dev nD) : W4 m ρ c (Proc.devRef .tc main_arg7) = m ((c : Thread nD τ).loc main_arg7) :=
  (W4_of_ne m ρ c main_arg7 (by decide)).trans (w3_arg7 m ρ c)
private theorem w4_arg8 (c : Dev nD) : W4 m ρ c (Proc.devRef .tc main_arg8) = m ((c : Thread nD τ).loc main_arg8) :=
  (W4_of_ne m ρ c main_arg8 (by decide)).trans (w3_arg8 m ρ c)
private theorem w4_arg9 (c : Dev nD) : W4 m ρ c (Proc.devRef .tc main_arg9) = m ((c : Thread nD τ).loc main_arg9) :=
  (W4_of_ne m ρ c main_arg9 (by decide)).trans (w3_arg9 m ρ c)

/-! ### At region 2's entry: the third host stretch -/

private theorem w5_v13 (c : Dev nD) : W5 m ρ c (Proc.devRef .tc main_v13) = cnt m c :=
  (show StableHlo.after hostOps2 (W4 m ρ c) (Proc.devRef .tc main_v13) = W4 m ρ c (Proc.devRef .tc main_v13) by
    unwritten hostOps2).trans (w4_v13 m ρ c)
private theorem w5_v22 (c : Dev nD) : W5 m ρ c (Proc.devRef .tc main_v22) = rdeg m c :=
  (show StableHlo.after hostOps2 (W4 m ρ c) (Proc.devRef .tc main_v22) = W4 m ρ c (Proc.devRef .tc main_v22) by
    unwritten hostOps2).trans (w4_v22 m ρ c)
private theorem w5_v28 (c : Dev nD) : W5 m ρ c (Proc.devRef .tc main_v28) = feat2 m c :=
  (show StableHlo.after hostOps2 (W4 m ρ c) (Proc.devRef .tc main_v28) = W4 m ρ c (Proc.devRef .tc main_v28) by
    unwritten hostOps2).trans (w4_v28 m ρ c)
private theorem w5_arg7 (c : Dev nD) : W5 m ρ c (Proc.devRef .tc main_arg7) = m ((c : Thread nD τ).loc main_arg7) :=
  (show StableHlo.after hostOps2 (W4 m ρ c) (Proc.devRef .tc main_arg7) = W4 m ρ c (Proc.devRef .tc main_arg7) by
    unwritten hostOps2).trans (w4_arg7 m ρ c)
private theorem w5_arg8 (c : Dev nD) : W5 m ρ c (Proc.devRef .tc main_arg8) = m ((c : Thread nD τ).loc main_arg8) :=
  (show StableHlo.after hostOps2 (W4 m ρ c) (Proc.devRef .tc main_arg8) = W4 m ρ c (Proc.devRef .tc main_arg8) by
    unwritten hostOps2).trans (w4_arg8 m ρ c)
private theorem w5_v29 (c : Dev nD) : W5 m ρ c (Proc.devRef .tc main_v29) = narrow (feat2 m c) := by
  show StableHlo.after hostOps2 (W4 m ρ c) (Proc.devRef .tc main_v29) = _
  after_results
  exact congrArg narrow (w4_v28 m ρ c)
private theorem w5_v30 (c : Dev nD) : W5 m ρ c (Proc.devRef .tc main_v30) = row64 (m ((c : Thread nD τ).loc main_arg9)) := by
  show StableHlo.after hostOps2 (W4 m ρ c) (Proc.devRef .tc main_v30) = _
  after_results
  rw [w4_arg9]
  rfl

/-- The result buffer's contents at the last segment boundary are three dense layers of the launch memory. -/
theorem result_eq (c : Dev nD) : W6 m ρ c (Proc.devRef .tc main_v31) = feat3 m c :=
  ((W6_arr m ρ c 7).trans (Region2.final (V5 m ρ) c)).trans
    (denseLayer_congr (w5_v13 m ρ c) (w5_v22 m ρ c) (w5_v29 m ρ c) (w5_v28 m ρ c) (w5_arg7 m ρ c) (w5_arg8 m ρ c) (w5_v30 m ρ c))

end Cert.Sage.KFold

end
-- ==== Proof.RefLayers.lean ====
/-
  The reference program, layer by layer. Each of its three layers gathers the source rows of the features edge by
  edge, adds them up at the destination rows, divides by max(in-degree, 1), and applies the two weight matrices, the
  bias and (in the first two layers) the positive part: that is the mean-aggregation layer of Spec.lean, entry by
  entry, once the edge words name nodes. Its result is therefore the three-layer function `sage3`.
-/
import proofs.«421933_j65781719106245_1_alg».proof.Proof.Gen.ReferenceIdeal.Run
import proofs.«421933_j65781719106245_1_alg».proof.Proof.Gen.ReferenceIdeal.Read
import proofs.«421933_j65781719106245_1_alg».proof.Proof.Spec
import proofs.«421933_j65781719106245_1_alg».proof.Proof.LibIndexRead
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StableHlo.Predicate

set_option maxRecDepth 16384

noncomputable section

namespace Cert.Sage.Ref

open Idealize.ShloMosaic Idealize.ShloMosaic.ValueIdx Cert.ReferenceIdeal Cert.ReferenceIdeal.Read Cert.Sage

/-- A word in range is its own unsigned value, below the number of nodes. -/
private theorem word_val {v : Words} (hv : InRange v) (e : Fin 640000) :
    (v (ix1 e)).toInt = ((v (ix1 e)).toNat : Int) ∧ (v (ix1 e)).toNat < 10000 := by
  obtain ⟨h0, h1⟩ := hv e
  have hlt := (v (ix1 e)).isLt
  rw [BitVec.toInt_eq_toNat_cond] at h0 h1 ⊢
  split_ifs at h0 h1 ⊢ <;> omega

/-- The node a word in range names is the word read signed. -/
theorem node_val {v : Words} (hv : InRange v) (e : Fin 640000) : ((node v e).val : Int) = (v (ix1 e)).toInt := by
  obtain ⟨h0, h1⟩ := word_val hv e
  rw [h0]
  show (((v (ix1 e)).toNat % 10000 : Nat) : Int) = _
  rw [Nat.mod_eq_of_lt h1]

/-- Reading a word signed gives node p exactly when the word names p. -/
private theorem word_eq_iff {v : Words} (hv : InRange v) (e : Fin 640000) (p : Fin 10000) :
    (v (ix1 e)).toInt = (p.val : Int) ↔ node v e = p := by
  rw [← node_val hv e]
  constructor
  · intro h; exact Fin.ext (Int.ofNat_inj.mp h)
  · intro h; rw [h]

/-- The source column of the gather, at edge e: the word itself, a nonnegative word being left alone. -/
private theorem src_word {x10 : Words} (hs : InRange x10) (e : Fin 640000) :
    (val_main_v5 (F := Ideal) x10 (ix2 e 0)).toInt = ((node x10 e).val : Int) := by
  have hi : idx_main_v5 (ix2 e (0 : Fin 1)) = ix1 e := funext fun a => Fin.ext (by match a with | ⟨0, _⟩ => rfl)
  rw [val_main_v5_apply, hi, val_main_v4_apply, val_main_v1_apply, val_main_v0_apply, val_main_c_apply]
  have h0 := (hs e).1
  have hc : IntOp.cmpi .slt (x10 (ix1 e)) 0#32 = 0#1 := by
    show BitVec.ofBool ((x10 (ix1 e)).slt 0#32) = 0#1
    have : (x10 (ix1 e)).slt 0#32 = false := by
      rw [BitVec.slt_eq_decide, decide_eq_false_iff_not]
      show ¬ (x10 (ix1 e)).toInt < (0#32 : BitVec 32).toInt
      rw [show (0#32 : BitVec 32).toInt = 0 from rfl]
      omega
    rw [this]; rfl
  rw [hc, select_zero]
  exact (node_val hs e).symm

/-- The destination column of the two scatters, at edge e: the word itself. -/
private theorem dst_word8 (x11 : Words) (e : Fin 640000) :
    val_main_v8 (F := Ideal) x11 (ix2 e 0) = x11 (ix1 e) := by
  have hi : idx_main_v8 (ix2 e (0 : Fin 1)) = ix1 e := funext fun a => Fin.ext (by match a with | ⟨0, _⟩ => rfl)
  rw [val_main_v8_apply, hi]

private theorem dst_word12 (x11 : Words) (e : Fin 640000) :
    val_main_v12 (F := Ideal) x11 (ix2 e 0) = x11 (ix1 e) := by
  have hi : idx_main_v12 (ix2 e (0 : Fin 1)) = ix1 e := funext fun a => Fin.ext (by match a with | ⟨0, _⟩ => rfl)
  rw [val_main_v12_apply, hi]

/-- The host's accumulating scatter at the ideal values is the exact sum. -/
private theorem scatterAdd_eq {s si u : Shape} {φ : FTy} {w : Nat} (d : ScatterDims s si u) (x : FVec Ideal s φ)
    (idx : IVec si w) (upd : FVec Ideal u φ) : Host.scatterAdd d x idx upd = Ideal.hostScatterAdd d x idx upd := rfl

/-- The degree stage is the scatter of ones at the destinations into a zero vector. -/
private theorem v13_eq (x11 : Words) :
    val_main_v13 (F := Ideal) x11
      = Host.scatterAdd (F := Ideal) (φ := .f32) scatter_S10000_S640000x1_S640000_n_0_0_1 (val_main_v11 (F := Ideal))
          (val_main_v12 (F := Ideal) x11) (val_main_v10 (F := Ideal)) := rfl

/-- The scattered ones: the in-degree. -/
private theorem deg_read {x11 : Words} (hd : InRange x11) (p : Fin 10000) :
    val_main_v13 (F := Ideal) x11 (ix1 p) = deg x11 p := by
  rw [v13_eq, scatterAdd_eq,
    IndexRead.scatterAdd_vec scatter_S10000_S640000x1_S640000_n_0_0_1 rfl rfl rfl rfl,
    val_main_v11_apply, val_main_cst_2_apply, Ideal.ofBits_def, Ideal.ofBits_zero_f32, zero_add]
  unfold deg
  refine Finset.sum_congr (Finset.filter_congr fun e _ => ?_) (fun e _ => ?_)
  · rw [dst_word12]; exact word_eq_iff hd e p
  · rw [val_main_v10_apply, val_main_cst_1_apply, Ideal.ofBits_def, Ideal.ofBits_one_f32]

/-- The neighbour-sum stage is the scatter of the gathered rows at the destinations into a zero matrix. -/
private theorem v9_eq (h : Mat 10000 128) (x10 x11 : Words) :
    val_main_v9 (F := Ideal) h x10 x11
      = Host.scatterAdd (F := Ideal) (φ := .f32) scatter_S10000x128_S640000x1_S640000x128_1_0_0_1
          (val_main_v7 (F := Ideal)) (val_main_v8 (F := Ideal) x11) (val_main_v6 (F := Ideal) h x10) := rfl

/-- The gathered rows: the features' rows named by the source column. -/
private theorem v6_eq (h : Mat 10000 128) (x10 : Words) :
    val_main_v6 (F := Ideal) h x10
      = Host.gather gather_S10000x128_S640000x1_S640000x128_1_0_n_n_0_1_1128 h (val_main_v5 (F := Ideal) x10) := rfl

/-- The scattered gathered rows: the sum of the sources' features over the edges into p. -/
private theorem sum_read (h : Mat 10000 128) {x10 x11 : Words} (hs : InRange x10) (hd : InRange x11)
    (p : Fin 10000) (d : Fin 128) :
    val_main_v9 (F := Ideal) h x10 x11 (ix2 p d) = nbrSum x10 x11 h p d := by
  rw [v9_eq, scatterAdd_eq,
    IndexRead.scatterAdd_rows scatter_S10000x128_S640000x1_S640000x128_1_0_0_1 rfl rfl rfl rfl,
    val_main_v7_apply, val_main_cst_apply, Ideal.ofBits_def, Ideal.ofBits_zero_f32, zero_add]
  unfold nbrSum
  refine Finset.sum_congr (Finset.filter_congr fun e _ => ?_) (fun e _ => ?_)
  · rw [dst_word8]; exact word_eq_iff hd e p
  · rw [v6_eq]
    exact IndexRead.gather_rows gather_S10000x128_S640000x1_S640000x128_1_0_n_n_0_1_1128 rfl rfl rfl rfl rfl rfl rfl
      h (val_main_v5 (F := Ideal) x10) e d (node x10 e) (src_word hs e)

/-- The quotient stage: the mean of the sources' features, the divisor at least one. -/
private theorem mean_read (h : Mat 10000 128) {x10 x11 : Words} (hs : InRange x10) (hd : InRange x11)
    (p : Fin 10000) (d : Fin 128) :
    val_main_v18 (F := Ideal) h x10 x11 (ix2 p d) = Ideal.div (nbrSum x10 x11 h p d) (max (deg x11 p) 1) := by
  have hi : idx_main_v16 (idx_main_v17 (ix2 p d)) = ix1 p := funext fun a => Fin.ext (by match a with | ⟨0, _⟩ => rfl)
  rw [val_main_v18_apply, Ideal.hostDivf_def, sum_read h hs hd, val_main_v17_apply, val_main_v16_apply, hi,
    val_main_v15_apply, Ideal.maximumf_def, deg_read hd, val_main_v14_apply, val_main_cst_3_apply, Ideal.ofBits_def,
    Ideal.ofBits_one_f32]

/-- The activation with the positive part is the maximum with zero. -/
private theorem act_true (x : EReal) : act true x = max x 0 := rfl

/-- The activation without the positive part is nothing. -/
private theorem act_false (x : EReal) : act false x = x := rfl

/-- The first layer of the reference, with the positive part. -/
theorem layer0 (x0 : Mat 10000 128) (x1 x2 : Mat 128 128) (x3 : Vec1 128) (x10 x11 : Words)
    (hs : InRange x10) (hd : InRange x11) :
    val_main_v25 (F := Ideal) x0 x1 x2 x3 x10 x11 = meanLayer true x10 x11 x0 x1 x2 x3 := by
  funext i
  obtain ⟨p, q, rfl⟩ : ∃ (p : Fin 10000) (q : Fin 128), i = ix2 p q := ⟨i 0, i 1, eq_ix2 i⟩
  have el19 : ∀ k : Fin 128, lidx_main_v19 (ix2 p q) k = ix2 p k := fun k => funext fun a => Fin.ext (by
    match a with | ⟨0, _⟩ => rfl | ⟨1, _⟩ => rfl)
  have er19 : ∀ k : Fin 128, ridx_main_v19 (ix2 p q) k = ix2 k q := fun k => funext fun a => Fin.ext (by
    match a with | ⟨0, _⟩ => rfl | ⟨1, _⟩ => rfl)
  have el20 : ∀ k : Fin 128, lidx_main_v20 (ix2 p q) k = ix2 p k := fun k => funext fun a => Fin.ext (by
    match a with | ⟨0, _⟩ => rfl | ⟨1, _⟩ => rfl)
  have er20 : ∀ k : Fin 128, ridx_main_v20 (ix2 p q) k = ix2 k q := fun k => funext fun a => Fin.ext (by
    match a with | ⟨0, _⟩ => rfl | ⟨1, _⟩ => rfl)
  have eb : idx_main_v22 (idx_main_v23 (ix2 p q)) = ix1 q := funext fun a => Fin.ext (by
    match a with | ⟨0, _⟩ => rfl)
  rw [meanLayer_apply, val_main_v25_apply, val_main_v24_apply, val_main_v21_apply, val_main_v19_apply,
    val_main_v20_apply, val_main_v23_apply, val_main_v22_apply, eb, val_main_call0_v0_apply,
    val_main_call0_cst_apply]
  simp only [el19, er19, el20, er20, mean_read x0 hs hd, Ideal.maximumf_def, Ideal.addf_def, Ideal.ofBits_def,
    Ideal.ofBits_zero_f32]
  unfold meanEntry
  rw [act_true]

/-- The second layer's quotient stage is the first layer's, over the first layer's result. -/
private theorem v44_eq (x0 : Mat 10000 128) (x1 x2 : Mat 128 128) (x3 : Vec1 128) (x10 x11 : Words) :
    val_main_v44 (F := Ideal) x0 x1 x2 x3 x10 x11
      = val_main_v18 (F := Ideal) (val_main_v25 (F := Ideal) x0 x1 x2 x3 x10 x11) x10 x11 := rfl

/-- The third layer's quotient stage is the first layer's, over the second layer's result. -/
private theorem v70_eq (x0 : Mat 10000 128) (x1 x2 : Mat 128 128) (x3 : Vec1 128) (x4 x5 : Mat 128 128) (x6 : Vec1 128)
    (x10 x11 : Words) :
    val_main_v70 (F := Ideal) x0 x1 x2 x3 x4 x5 x6 x10 x11
      = val_main_v18 (F := Ideal) (val_main_v51 (F := Ideal) x0 x1 x2 x3 x4 x5 x6 x10 x11) x10 x11 := rfl

/-- The second layer, applied to the first layer's result. -/
theorem layer1 (x0 : Mat 10000 128) (x1 x2 : Mat 128 128) (x3 : Vec1 128) (x4 x5 : Mat 128 128) (x6 : Vec1 128)
    (x10 x11 : Words) (hs : InRange x10) (hd : InRange x11) :
    val_main_v51 (F := Ideal) x0 x1 x2 x3 x4 x5 x6 x10 x11
      = meanLayer true x10 x11 (val_main_v25 (F := Ideal) x0 x1 x2 x3 x10 x11) x4 x5 x6 := by
  funext i
  obtain ⟨p, q, rfl⟩ : ∃ (p : Fin 10000) (q : Fin 128), i = ix2 p q := ⟨i 0, i 1, eq_ix2 i⟩
  have el45 : ∀ k : Fin 128, lidx_main_v45 (ix2 p q) k = ix2 p k := fun k => funext fun a => Fin.ext (by
    match a with | ⟨0, _⟩ => rfl | ⟨1, _⟩ => rfl)
  have er45 : ∀ k : Fin 128, ridx_main_v45 (ix2 p q) k = ix2 k q := fun k => funext fun a => Fin.ext (by
    match a with | ⟨0, _⟩ => rfl | ⟨1, _⟩ => rfl)
  have el46 : ∀ k : Fin 128, lidx_main_v46 (ix2 p q) k = ix2 p k := fun k => funext fun a => Fin.ext (by
    match a with | ⟨0, _⟩ => rfl | ⟨1, _⟩ => rfl)
  have er46 : ∀ k : Fin 128, ridx_main_v46 (ix2 p q) k = ix2 k q := fun k => funext fun a => Fin.ext (by
    match a with | ⟨0, _⟩ => rfl | ⟨1, _⟩ => rfl)
  have eb : idx_main_v48 (idx_main_v49 (ix2 p q)) = ix1 q := funext fun a => Fin.ext (by
    match a with | ⟨0, _⟩ => rfl)
  rw [meanLayer_apply, val_main_v51_apply, val_main_v50_apply, val_main_v47_apply, val_main_v45_apply,
    val_main_v46_apply, v44_eq, val_main_v49_apply, val_main_v48_apply, eb, val_main_call1_v0_apply,
    val_main_call1_cst_apply]
  simp only [el45, er45, el46, er46, mean_read (val_main_v25 (F := Ideal) x0 x1 x2 x3 x10 x11) hs hd,
    Ideal.maximumf_def, Ideal.addf_def, Ideal.ofBits_def, Ideal.ofBits_zero_f32]
  unfold meanEntry
  rw [act_true]

/-- The third layer, 64 wide and without the positive part, applied to the second layer's result. -/
theorem layer2 (x0 : Mat 10000 128) (x1 x2 : Mat 128 128) (x3 : Vec1 128) (x4 x5 : Mat 128 128) (x6 : Vec1 128)
    (x7 x8 : Mat 128 64) (x9 : Vec1 64) (x10 x11 : Words) (hs : InRange x10) (hd : InRange x11) :
    val_main_v76 (F := Ideal) x0 x1 x2 x3 x4 x5 x6 x7 x8 x9 x10 x11
      = meanLayer false x10 x11 (val_main_v51 (F := Ideal) x0 x1 x2 x3 x4 x5 x6 x10 x11) x7 x8 x9 := by
  funext i
  obtain ⟨p, q, rfl⟩ : ∃ (p : Fin 10000) (q : Fin 64), i = ix2 p q := ⟨i 0, i 1, eq_ix2 i⟩
  have el71 : ∀ k : Fin 128, lidx_main_v71 (ix2 p q) k = ix2 p k := fun k => funext fun a => Fin.ext (by
    match a with | ⟨0, _⟩ => rfl | ⟨1, _⟩ => rfl)
  have er71 : ∀ k : Fin 128, ridx_main_v71 (ix2 p q) k = ix2 k q := fun k => funext fun a => Fin.ext (by
    match a with | ⟨0, _⟩ => rfl | ⟨1, _⟩ => rfl)
  have el72 : ∀ k : Fin 128, lidx_main_v72 (ix2 p q) k = ix2 p k := fun k => funext fun a => Fin.ext (by
    match a with | ⟨0, _⟩ => rfl | ⟨1, _⟩ => rfl)
  have er72 : ∀ k : Fin 128, ridx_main_v72 (ix2 p q) k = ix2 k q := fun k => funext fun a => Fin.ext (by
    match a with | ⟨0, _⟩ => rfl | ⟨1, _⟩ => rfl)
  have eb : idx_main_v74 (idx_main_v75 (ix2 p q)) = ix1 q := funext fun a => Fin.ext (by
    match a with | ⟨0, _⟩ => rfl)
  rw [meanLayer_apply, val_main_v76_apply, val_main_v73_apply, val_main_v71_apply, val_main_v72_apply, v70_eq,
    val_main_v75_apply, val_main_v74_apply, eb]
  simp only [el71, er71, el72, er72, mean_read (val_main_v51 (F := Ideal) x0 x1 x2 x3 x4 x5 x6 x10 x11) hs hd,
    Ideal.addf_def]
  unfold meanEntry
  rw [act_false]

/-- The reference's result is the three-layer function of its arguments. -/
theorem result (x0 : Mat 10000 128) (x1 x2 : Mat 128 128) (x3 : Vec1 128) (x4 x5 : Mat 128 128) (x6 : Vec1 128)
    (x7 x8 : Mat 128 64) (x9 : Vec1 64) (x10 x11 : Words) (hs : InRange x10) (hd : InRange x11) :
    val_main_v76 (F := Ideal) x0 x1 x2 x3 x4 x5 x6 x7 x8 x9 x10 x11
      = sage3 x10 x11 x0 x1 x2 x3 x4 x5 x6 x7 x8 x9 := by
  rw [layer2 x0 x1 x2 x3 x4 x5 x6 x7 x8 x9 x10 x11 hs hd, layer1 x0 x1 x2 x3 x4 x5 x6 x10 x11 hs hd,
    layer0 x0 x1 x2 x3 x10 x11 hs hd]
  rfl

end Cert.Sage.Ref

end
-- ==== Proof.PreRange.lean ====
/-
  What the precondition says of the edge vectors. Its last two conjuncts are `all (0 ≤ v) ∧ (v < 10000)` for the
  source and the destination words: a conjunction of single bits that is one has every bit one, a reduction by
  `and` that is one met only ones, and a signed comparison bit that is one says the comparison holds.
-/
import proofs.«421933_j65781719106245_1_alg».proof.Proof.Gen.Pre_finite_inputs
import proofs.«421933_j65781719106245_1_alg».proof.Proof.Spec
import Idealize.ShloMosaic.PureOps.Ideal
import Idealize.ShloMosaic.Lib.ReduceAll
import Idealize.ShloMosaic.Lib.ValueIdx

set_option maxRecDepth 16384

noncomputable section

namespace Cert.Sage.PreRange

open Idealize.ShloMosaic Idealize.ShloMosaic.ValueIdx Cert.Pre_finite_inputs Cert.Pre_finite_inputs.Gen Cert.Sage

instance : Subsingleton S_.Idx := ⟨fun a b => funext fun d => d.elim0⟩

/-- A word whose two comparison bits `0 ≤ w` and `w < 10000` (signed) are set names a node. -/
theorem word_in_range (w : BitVec 32) (h : IntOp.andi (IntOp.cmpi .sge w 0#32) (IntOp.cmpi .slt w 10000#32) = 1#1) :
    0 ≤ w.toInt ∧ w.toInt < 10000 := by
  obtain ⟨h0, h1⟩ := IntOp.andi_eq_one.1 h
  unfold IntOp.cmpi at h0 h1
  have e0 : ∀ b : Bool, BitVec.ofBool b = 1#1 → b = true := by decide
  have h0' := e0 _ h0
  have h1' := e0 _ h1
  simp only [BitVec.slt, BitVec.sle, decide_eq_true_eq] at h0' h1'
  have z : (0#32 : BitVec 32).toInt = 0 := by decide
  have t : (10000#32 : BitVec 32).toInt = 10000 := by decide
  constructor
  · omega
  · omega

/-- Under the precondition both edge vectors name nodes. -/
theorem inRange_of_pre {F : FTy → Type} [FloatOps F]
    (a0 : FVec F S10000x128 .f32) (a1 a2 : FVec F S128x128 .f32) (a3 : FVec F S128 .f32) (a4 a5 : FVec F S128x128 .f32)
    (a6 : FVec F S128 .f32) (a7 a8 : FVec F S128x64 .f32) (a9 : FVec F S64 .f32) (a10 a11 : IVec S640000 32)
    (h : fn (F := F) a0 a1 a2 a3 a4 a5 a6 a7 a8 a9 a10 a11 = fun _ => 1#1) : InRange a10 ∧ InRange a11 := by
  have h0 := congrFun h ix0
  unfold fn fn_part1 fn_part2 fn_part3 at h0
  dsimp only at h0
  obtain ⟨h1, hdst⟩ := IntOp.andi_eq_one.1 h0
  obtain ⟨-, hsrc⟩ := IntOp.andi_eq_one.1 h1
  constructor
  · intro e
    exact word_in_range _ (Host.reduce_andi_all _ _ _ _ _ hsrc (ix1 e))
  · intro e
    exact word_in_range _ (Host.reduce_andi_all _ _ _ _ _ hdst (ix1 e))

end Cert.Sage.PreRange

end
-- ==== Proof.lean ====
/-
  Three stacked mean-aggregation layers on a graph of 10000 nodes and 640000 edges: the kernel's program against the
  reference, over the extended reals.

  The reference gathers, edge by edge, the features of each edge's source, adds them up at the edge's destination,
  divides by max(in-degree, 1) and applies two weight matrices and a bias (and, in the first two layers, the positive
  part). The kernel's program first counts the edges into a dense 10000 x 10000 matrix A (A p j = number of edges
  j -> p, built by a scatter of ones at the flat position dst * 10000 + src) and a column of reciprocals
  1 / max(in-degree, 1), then runs each layer as dense products, 400 rows at a grid point:
  h Ws + ((A h) * column) Wn + b. The two agree because a count times a value is that value added so many times
  (at the infinities too) and the edges into a node are partitioned by their source; a product with 1/m is the
  quotient by m for a real m ≥ 1. Both need every edge word to name a node, which is the precondition's last two
  conjuncts: outside that range the reference itself indexes out of range (and the flat position wraps).

  The frames of the two kernel programs and the reference's run are generated modules; `preserves` is trivial (the
  idealization rewrote nothing). What is proved here and in the modules under Proof/: the value of each region as
  a function of its arrays (Region0-2), the walk of those values through the program's segments (KernelFold, over the
  run of KernelRun), the host terms read at an index (KernelHost, LibIndexRead), the reference's stages as layers
  (RefLayers), the sums (EdgeSums) and the precondition read back (PreRange).
-/
import proofs.«421933_j65781719106245_1_alg».proof.Defs
import proofs.«421933_j65781719106245_1_alg».proof.Proof.Gen.Kernel
import proofs.«421933_j65781719106245_1_alg».proof.Proof.Gen.Kernel.Skeleton
import proofs.«421933_j65781719106245_1_alg».proof.Proof.Gen.Kernel.Launch
import proofs.«421933_j65781719106245_1_alg».proof.Proof.Gen.Kernel.Points
import proofs.«421933_j65781719106245_1_alg».proof.Proof.Gen.Kernel.Frame
import proofs.«421933_j65781719106245_1_alg».proof.Proof.Gen.KernelIdeal
import proofs.«421933_j65781719106245_1_alg».proof.Proof.Gen.KernelIdeal.Skeleton
import proofs.«421933_j65781719106245_1_alg».proof.Proof.Gen.KernelIdeal.Launch
import proofs.«421933_j65781719106245_1_alg».proof.Proof.Gen.KernelIdeal.Points
import proofs.«421933_j65781719106245_1_alg».proof.Proof.Gen.KernelIdeal.Frame
import proofs.«421933_j65781719106245_1_alg».proof.Proof.Gen.ReferenceIdeal
import proofs.«421933_j65781719106245_1_alg».proof.Proof.Gen.ReferenceIdeal.Run
import proofs.«421933_j65781719106245_1_alg».proof.Proof.Gen.ReferenceIdeal.Read
import proofs.«421933_j65781719106245_1_alg».proof.Proof.Gen.Pre_finite_inputs
import proofs.«421933_j65781719106245_1_alg».proof.Proof.Spec
import proofs.«421933_j65781719106245_1_alg».proof.Proof.EdgeSums
import proofs.«421933_j65781719106245_1_alg».proof.Proof.KernelHost
import proofs.«421933_j65781719106245_1_alg».proof.Proof.KernelRun
import proofs.«421933_j65781719106245_1_alg».proof.Proof.KernelFold
import proofs.«421933_j65781719106245_1_alg».proof.Proof.RefLayers
import proofs.«421933_j65781719106245_1_alg».proof.Proof.PreRange
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Cert.Sage

/-! ## One dense layer of the program is one mean-aggregation layer -/

/-- The dense form over the program's own count matrix and reciprocal-degree column, the features read twice
    (once in the narrower format, which changes nothing at the ideal values), the bias as a row. -/
theorem dense_step (relu : Bool) {D : Nat} (src dst : Words) (hs : InRange src) (hd : InRange dst)
    (h : Mat 10000 128) (Ws Wn : Mat 128 D) (b : Vec1 D) (b' : Mat 1 D) (hb : ∀ q : Fin D, b' (ix2 0 q) = b (ix1 q)) :
    denseLayer relu (KHost.hostA src dst) (KHost.hostInvd dst) (KFold.narrow h) h Ws Wn b' = meanLayer relu src dst h Ws Wn b :=
  denseLayer_eq_meanLayer relu src dst _ _ (KHost.hostA_apply src dst hs hd) (KHost.hostInvd_apply dst hd) h Ws Wn b b' hb

section Kernel

open Cert.KernelIdeal

variable (m : (ℓ : Loc Cert.KernelIdeal.nD Cert.KernelIdeal.τ Cert.KernelIdeal.sig) → Buf (Elt Ideal) ℓ)

/-- The program's three dense layers of the launch memory are the three-layer function of its arguments. -/
theorem feat3_eq (c : Dev Cert.KernelIdeal.nD)
    (hs : InRange (m ((c.tc : Thread Cert.KernelIdeal.nD Cert.KernelIdeal.τ).loc Cert.KernelIdeal.main_arg10))) (hd : InRange (m ((c.tc : Thread Cert.KernelIdeal.nD Cert.KernelIdeal.τ).loc Cert.KernelIdeal.main_arg11))) :
    KFold.feat3 m c = sage3 (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) := by
  have e1 : KFold.feat1 m c = meanLayer true (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    dense_step true _ _ hs hd _ _ _ _ _ (KFold.row128_apply _)
  have e2 : KFold.feat2 m c = meanLayer true (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (KFold.feat1 m c) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) :=
    dense_step true _ _ hs hd _ _ _ _ _ (KFold.row128_apply _)
  have e3 : KFold.feat3 m c = meanLayer false (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (KFold.feat2 m c) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) :=
    dense_step false _ _ hs hd _ _ _ _ _ (KFold.row64_apply _)
  rw [e3, e2, e1]
  rfl

end Kernel

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the three-layer function of the (agreeing) arguments in their result buffers. -/
theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg10)) ∧ InRange (m ((c.tc : Thread Cert.KernelIdeal.nD Cert.KernelIdeal.τ).loc Cert.KernelIdeal.main_arg11)) :=
    fun c => PreRange.inRange_of_pre _ _ _ _ _ _ _ _ _ _ _ _ (hpre c)
  refine ⟨fun c => sage3 (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans ((KFold.result_eq m ρ c).trans (feat3_eq m c (hr c).1 (hr c).2)), (h c).2⟩)
      (KRun.run_result (F := Ideal) m ρ)
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11⟩ := hagree c
    rw [(h c).1, Cert.ReferenceIdeal.Read.val_main_v76_eq, a0, a1, a2, a3, a4, a5, a6, a7, a8, a9, a10, a11]
    exact Ref.result _ _ _ _ _ _ _ _ _ _ _ _ (hr c).1 (hr c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
